-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "c_2_11" .f32 0x3E3A2E8C#32 ((2 / 11 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x1024x3 : Shape := ⟨4, ![4, 4, 1024, 3]⟩
abbrev S4x1024 : Shape := ⟨2, ![4, 1024]⟩
abbrev S_ : Shape := ⟨0, ![]⟩

class Facts : Prop where
  bcast_S_S4x4x1024x3 : S_.BroadcastsInDim S4x4x1024x3 (![] : Fin 0 → Fin S4x4x1024x3.rank)
  reducesTo_S4x4x1024x3_S_d0_1_2_3 : S4x4x1024x3.ReducesTo [0, 1, 2, 3] S_
  h_S_ : 0 < S_.numel

variable [Facts]

def fn {F : FTy → Type} [FloatOps F] (main_arg0 : FVec F S4x4x1024x3 .f32) (main_arg1 : IVec S4x1024 32) : IVec S_ 1 :=
  let main_v0 : FVec F S4x4x1024x3 .f32 := Host.absf main_arg0
  let main_cst : FVec F S_ .f32 := constant S_ .f32 0x7F800000#32
  let main_v1 : FVec F S4x4x1024x3 .f32 := broadcastInDim S4x4x1024x3 ![] bcast_S_S4x4x1024x3 main_cst
  let main_v2 : IVec S4x4x1024x3 1 := cmpf .olt main_v0 main_v1
  let main_c : IVec S_ 1 := constantI S_ 1 1#1
  let main_v3 : IVec S_ 1 := (fun x v => Host.reduce IntOp.andi x v reducesTo_S4x4x1024x3_S_d0_1_2_3 h_S_) main_v2 main_c
  main_v3
-- ==== Kernel.lean ====
abbrev S4x4x1024x3 : Shape := ⟨4, ![4, 4, 1024, 3]⟩
abbrev S4x1024 : Shape := ⟨2, ![4, 1024]⟩
abbrev S1x1x128x3 : Shape := ⟨4, ![1, 1, 128, 3]⟩
abbrev S1x1x1024x3 : Shape := ⟨4, ![1, 1, 1024, 3]⟩
abbrev S128x3 : Shape := ⟨2, ![128, 3]⟩
abbrev S1024x3 : Shape := ⟨2, ![1024, 3]⟩
abbrev S3x1024 : Shape := ⟨2, ![3, 1024]⟩
abbrev S1x1024 : Shape := ⟨2, ![1, 1024]⟩
abbrev S128x1 : Shape := ⟨2, ![128, 1]⟩
abbrev S128x1024 : Shape := ⟨2, ![128, 1024]⟩
abbrev S128 : Shape := ⟨1, ![128]⟩
abbrev S4x4x3072 : Shape := ⟨3, ![4, 4, 3072]⟩

abbrev nBuf : Space → Nat
  | .hbm => 4
  | .vmem => 6
  | .smem => 0
  | _ => 0

abbrev bufTy : (tb : Table) → Fin (tcTables nBuf tb) → BufTy
  | .hbm, ⟨0, _⟩ => ⟨S4x4x1024x3, .f32⟩
  | .hbm, ⟨1, _⟩ => ⟨S4x1024, .i32⟩
  | .hbm, ⟨2, _⟩ => ⟨S4x4x1024x3, .f32⟩
  | .hbm, ⟨3, _⟩ => ⟨S4x4x3072, .f32⟩
  | .local _ .vmem, ⟨0, _⟩ => ⟨S1x1x128x3, .f32⟩
  | .local _ .vmem, ⟨1, _⟩ => ⟨S1x1x128x3, .f32⟩
  | .local _ .vmem, ⟨2, _⟩ => ⟨S1x1x1024x3, .f32⟩
  | .local _ .vmem, ⟨3, _⟩ => ⟨S1x1x1024x3, .f32⟩
  | .local _ .vmem, ⟨4, _⟩ => ⟨S1x1x128x3, .f32⟩
  | .local _ .vmem, ⟨5, _⟩ => ⟨S1x1x128x3, .f32⟩
  | _, _ => ⟨S4x4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x1x128x3_S1x1x128x3_0_0_0_0 : ∀ a, (![0, 0, 0, 0] : Fin 4 → Nat) a + S1x1x128x3.size a ≤ S1x1x128x3.size a
  h_S1x1x128x3 : 0 < S1x1x128x3.numel
  shapeCasts_S1x1x128x3_S128x3 : S1x1x128x3.ShapeCasts S128x3
  inb_S1x1x1024x3_S1x1x1024x3_0_0_0_0 : ∀ a, (![0, 0, 0, 0] : Fin 4 → Nat) a + S1x1x1024x3.size a ≤ S1x1x1024x3.size a
  h_S1x1x1024x3 : 0 < S1x1x1024x3.numel
  shapeCasts_S1x1x1024x3_S1024x3 : S1x1x1024x3.ShapeCasts S1024x3
  transposes_S1024x3_p1_0_S3x1024 : S1024x3.Transposes [1, 0] S3x1024
  slices_S3x1024_o0_0_S1x1024 : S3x1024.Slices ![0, 0] S1x1024
  slices_S128x3_o0_0_S128x1 : S128x3.Slices ![0, 0] S128x1
  broadcasts_S128x1_S128x1024 : S128x1.Broadcasts S128x1024
  broadcasts_S1x1024_S128x1024 : S1x1024.Broadcasts S128x1024
  slices_S3x1024_o1_0_S1x1024 : S3x1024.Slices ![1, 0] S1x1024
  slices_S128x3_o0_1_S128x1 : S128x3.Slices ![0, 1] S128x1
  slices_S3x1024_o2_0_S1x1024 : S3x1024.Slices ![2, 0] S1x1024
  slices_S128x3_o0_2_S128x1 : S128x3.Slices ![0, 2] S128x1
  reduces_S128x1024_S128 : S128x1024.Reduces [1] S128
  shapeCasts_S128_S128x1 : S128.ShapeCasts S128x1
  concatenates_S128x1_S128x1_S128x1_S128x3_d1 : Shape.Concatenates [S128x1, S128x1, S128x1] S128x3 1
  shapeCasts_S128x3_S1x1x128x3 : S128x3.ShapeCasts S1x1x128x3
  shapeCasts_S4x4x1024x3_S4x4x3072 : S4x4x1024x3.ShapeCasts S4x4x3072
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x3.size a ≤ S4x4x1024x3.size a
  hwx0_0 : ∀ i : grid0.Coords, EltTy.bits .f32 = 32 ∨ (Rect.block (s := S4x4x1024x3) S1x1x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x3.size a ≤ S4x4x1024x3.size a
  hwx0_1 : ∀ i : grid0.Coords, EltTy.bits .f32 = 32 ∨ (Rect.block (s := S4x4x1024x3) S1x1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x3.size a ≤ S4x4x1024x3.size a
  hwx0_2 : ∀ i : grid0.Coords, EltTy.bits .f32 = 32 ∨ (Rect.block (s := S4x4x1024x3) S1x1x128x3.size (cc0_transform_2 i) (hinb0_2 i)).WholeWords (EltTy.packing .f32)

variable [Facts₀]

abbrev win0_0 : Pipeline.Window sig grid0 :=
  Pipeline.Window.ofSpec (Memref.whole main_arg0) S1x1x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4x1024x3 : Shape := ⟨4, ![4, 4, 1024, 3]⟩
abbrev S4x1024 : Shape := ⟨2, ![4, 1024]⟩
abbrev S4x4x1024x1x3 : Shape := ⟨5, ![4, 4, 1024, 1, 3]⟩
abbrev S4x4x1x1024x3 : Shape := ⟨5, ![4, 4, 1, 1024, 3]⟩
abbrev S4x4x1024x1024x3 : Shape := ⟨5, ![4, 4, 1024, 1024, 3]⟩
abbrev S_ : Shape := ⟨0, ![]⟩
abbrev S4x4x1024x1024 : Shape := ⟨4, ![4, 4, 1024, 1024]⟩
abbrev S4x4x1024x1024x1 : Shape := ⟨5, ![4, 4, 1024, 1024, 1]⟩
abbrev S4x4x3072 : Shape := ⟨3, ![4, 4, 3072]⟩

abbrev nBuf : Space → Nat
  | .hbm => 48
  | .vmem => 0
  | .smem => 0
  | _ => 0

abbrev bufTy : (tb : Table) → Fin (tcTables nBuf tb) → BufTy
  | .hbm, ⟨0, _⟩ => ⟨S4x4x1024x3, .f32⟩
  | .hbm, ⟨1, _⟩ => ⟨S4x1024, .i32⟩
  | .hbm, ⟨2, _⟩ => ⟨S4x4x1024x1x3, .f32⟩
  | .hbm, ⟨3, _⟩ => ⟨S4x4x1x1024x3, .f32⟩
  | .hbm, ⟨4, _⟩ => ⟨S4x4x1024x1024x3, .f32⟩
  | .hbm, ⟨5, _⟩ => ⟨S4x4x1024x1024x3, .f32⟩
  | .hbm, ⟨6, _⟩ => ⟨S4x4x1024x1024x3, .f32⟩
  | .hbm, ⟨7, _⟩ => ⟨S4x4x1024x1024x3, .f32⟩
  | .hbm, ⟨8, _⟩ => ⟨S_, .f32⟩
  | .hbm, ⟨9, _⟩ => ⟨S4x4x1024x1024, .f32⟩
  | .hbm, ⟨10, _⟩ => ⟨S_, .f32⟩
  | .hbm, ⟨11, _⟩ => ⟨S4x4x1024x1024, .f32⟩
  | .hbm, ⟨12, _⟩ => ⟨S4x4x1024x1024, .f32⟩
  | .hbm, ⟨13, _⟩ => ⟨S4x4x1024x1024, .f32⟩
  | .hbm, ⟨14, _⟩ => ⟨S_, .f32⟩
  | .hbm, ⟨15, _⟩ => ⟨S4x4x1024x1024, .f32⟩
  | .hbm, ⟨16, _⟩ => ⟨S4x4x1024x1024, .f32⟩
  | .hbm, ⟨17, _⟩ => ⟨S_, .f32⟩
  | .hbm, ⟨18, _⟩ => ⟨S4x4x1024x1024, .f32⟩
  | .hbm, ⟨19, _⟩ => ⟨S4x4x1024x1024, .f32⟩
  | .hbm, ⟨20, _⟩ => ⟨S_, .f32⟩
  | .hbm, ⟨21, _⟩ => ⟨S4x4x1024x1024, .f32⟩
  | .hbm, ⟨22, _⟩ => ⟨S4x4x1024x1024, .f32⟩
  | .hbm, ⟨23, _⟩ => ⟨S4x4x1024x1024, .f32⟩
  | .hbm, ⟨24, _⟩ => ⟨S_, .f32⟩
  | .hbm, ⟨25, _⟩ => ⟨S4x4x1024x1024, .f32⟩
  | .hbm, ⟨26, _⟩ => ⟨S4x4x1024x1024, .f32⟩
  | .hbm, ⟨27, _⟩ => ⟨S_, .f32⟩
  | .hbm, ⟨28, _⟩ => ⟨S4x4x1024x1024, .f32⟩
  | .hbm, ⟨29, _⟩ => ⟨S4x4x1024x1024, .f32⟩
  | .hbm, ⟨30, _⟩ => ⟨S_, .f32⟩
  | .hbm, ⟨31, _⟩ => ⟨S4x4x1024x1024, .f32⟩
  | .hbm, ⟨32, _⟩ => ⟨S4x4x1024x1024, .i1⟩
  | .hbm, ⟨33, _⟩ => ⟨S_, .f32⟩
  | .hbm, ⟨34, _⟩ => ⟨S4x4x1024x1024, .f32⟩
  | .hbm, ⟨35, _⟩ => ⟨S_, .f32⟩
  | .hbm, ⟨36, _⟩ => ⟨S4x4x1024x1024, .f32⟩
  | .hbm, ⟨37, _⟩ => ⟨S4x4x1024x1024, .i1⟩
  | .hbm, ⟨38, _⟩ => ⟨S_, .f32⟩
  | .hbm, ⟨39, _⟩ => ⟨S4x4x1024x1024, .f32⟩
  | .hbm, ⟨40, _⟩ => ⟨S4x4x1024x1024, .f32⟩
  | .hbm, ⟨41, _⟩ => ⟨S4x4x1024x1024, .f32⟩
  | .hbm, ⟨42, _⟩ => ⟨S4x4x1024x1024x1, .f32⟩
  | .hbm, ⟨43, _⟩ => ⟨S4x4x1024x1024x3, .f32⟩
  | .hbm, ⟨44, _⟩ => ⟨S4x4x1024x1024x3, .f32⟩
  | .hbm, ⟨45, _⟩ => ⟨S_, .f32⟩
  | .hbm, ⟨46, _⟩ => ⟨S4x4x1024x3, .f32⟩
  | .hbm, ⟨47, _⟩ => ⟨S4x4x3072, .f32⟩
  | _, _ => ⟨S4x4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_10 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S4x4x1024x3_S4x4x1024x1x3_0_1_2_4 : S4x4x1024x3.BroadcastsInDim S4x4x1024x1x3 (![0, 1, 2, 4] : Fin 4 → Fin S4x4x1024x1x3.rank)
  bcast_S4x4x1024x3_S4x4x1x1024x3_0_1_3_4 : S4x4x1024x3.BroadcastsInDim S4x4x1x1024x3 (![0, 1, 3, 4] : Fin 4 → Fin S4x4x1x1024x3.rank)
  bcast_S4x4x1024x1x3_S4x4x1024x1024x3_0_1_2_3_4 : S4x4x1024x1x3.BroadcastsInDim S4x4x1024x1024x3 (![0, 1, 2, 3, 4] : Fin 5 → Fin S4x4x1024x1024x3.rank)
  bcast_S4x4x1x1024x3_S4x4x1024x1024x3_0_1_2_3_4 : S4x4x1x1024x3.BroadcastsInDim S4x4x1024x1024x3 (![0, 1, 2, 3, 4] : Fin 5 → Fin S4x4x1024x1024x3.rank)
  reducesTo_S4x4x1024x1024x3_S4x4x1024x1024_d4 : S4x4x1024x1024x3.ReducesTo [4] S4x4x1024x1024
  h_S_ : 0 < S_.numel
  bcast_S_S4x4x1024x1024 : S_.BroadcastsInDim S4x4x1024x1024 (![] : Fin 0 → Fin S4x4x1024x1024.rank)
  bcast_S4x4x1024x1024_S4x4x1024x1024x1_0_1_2_3 : S4x4x1024x1024.BroadcastsInDim S4x4x1024x1024x1 (![0, 1, 2, 3] : Fin 4 → Fin S4x4x1024x1024x1.rank)
  bcast_S4x4x1024x1024x1_S4x4x1024x1024x3_0_1_2_3_4 : S4x4x1024x1024x1.BroadcastsInDim S4x4x1024x1024x3 (![0, 1, 2, 3, 4] : Fin 5 → Fin S4x4x1024x1024x3.rank)
  reducesTo_S4x4x1024x1024x3_S4x4x1024x3_d3 : S4x4x1024x1024x3.ReducesTo [3] S4x4x1024x3
  shapeCasts_S4x4x1024x3_S4x4x3072 : S4x4x1024x3.ShapeCasts S4x4x3072

variable [Facts₀]

class Facts : Prop extends Facts₀ where

variable [Facts]
-- ==== Proof.BitsData.lean ====
/-
  The pairwise-descriptor kernel's pipeline, described point by point.

  The grid has 4 · 4 · 8 points (batch b, frame f, query tile i). At a point the body is handed three staging
  buffers: the QUERY tile (rows 128·i … 128·i+127 of the (b, f) slice of the coordinate array), the KEY set (all
  1024 rows of the same slice) and the OUTPUT tile. Both input windows read ONE array, the coordinate array; the
  query window moves at every point, the key window only when (b, f) moves, that is every eighth point. The body
  reads the two input buffers, reads (and ignores) the output buffer, and overwrites the whole output buffer with
  a value that is a function of the two input blocks alone: `stored q k` below.

  So, whatever the output buffer held before, after the body at point t it holds `stored (tile 0 t) (tile 1 t)`,
  and the two input buffers are left as found: that is the proof data `dats`. Each input window holds one HALF of
  the coordinate array's share (two readers of one array), the output window its array outright.
-/
import proofs.«140011_j7275674599831_1_alg».proof.Proof.Gen.Kernel.Launch
import proofs.«140011_j7275674599831_1_alg».proof.Proof.Gen.Kernel.Skeleton
import proofs.«140011_j7275674599831_1_alg».proof.Proof.Gen.Kernel.Points
import Idealize.ShloMosaic.Lib.Pipeline.FrameBody
import Idealize.ShloMosaic.Lib.Tactic

set_option maxRecDepth 16384

noncomputable section

namespace Cert.Kernel.Desc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- What core `c`'s buffers hold when the region is entered: @main begins with the region, so the launch contents. -/
abbrev entry (c : Dev nD) (b : Ref sig .tc) : Buf (Elt F) ((c : Thread nD τ).loc b) := m ((c : Thread nD τ).loc b)

/-- Window `w`'s block of its array at point `t`: for the query window the 128 rows of tile i of slice (b, f), for the
    key window all 1024 rows of slice (b, f). -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- What the body stores into the output buffer, from the query block `q` and the key block `k`: the three
    coordinate differences, the distance, the switching weight and the three weighted row sums, laid side by side
    (the skeleton's payloads composed in the order the body computes them). -/
def stored (q : Vec F S1x1x128x3 .f32) (k : Vec F S1x1x1024x3 .f32) : Vec F S1x1x128x3 .f32 :=
  k0_pay1 (k0_pay4 q k) (k0_pay5 q k) (k0_pay6 q k) (k0_pay7 q k) (k0_pay8 q k) (k0_pay9 q k) (Scalar.ofBits .f32 0x3F800000#32)

/-- The pipeline's proof data on core `c`. -/
def dats (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => stored (tile m c 0 t) (tile m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

theorem after_query (c : Dev nD) (t : Fin cfg0.N) : (dats m 0 c).after 0 t = tile m c 0 t := by dsimp only [dats]
theorem after_keys (c : Dev nD) (t : Fin cfg0.N) : (dats m 0 c).after 1 t = tile m c 1 t := by dsimp only [dats]
theorem after_out (c : Dev nD) (t : Fin cfg0.N) :
    (dats m 0 c).after 2 t = stored (tile m c 0 t) (tile m c 1 t) := by dsimp only [dats]

theorem share_query (c : Dev nD) : (dats m 0 c).share 0 = fullShare.left := rfl
theorem share_keys (c : Dev nD) : (dats m 0 c).share 1 = fullShare.right := rfl
theorem share_out (c : Dev nD) : (dats m 0 c).share 2 = fullShare := rfl

end Cert.Kernel.Desc

end
-- ==== Proof.BitsBody.lean ====
/-
  The body of the descriptor kernel at one grid point: from the query block, the key block and an output buffer
  holding anything, it runs to the same two input buffers and the output buffer at `stored` of the two blocks.
-/
import proofs.«140011_j7275674599831_1_alg».proof.Proof.BitsData
import Idealize.ShloMosaic.Lib.Pipeline.Value

set_option maxRecDepth 16384

noncomputable section

namespace Cert.Kernel.Desc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## Accesses at the origin of a whole buffer -/

/-- The four offsets of an access at a rank-four buffer's origin are the constant zero. -/
theorem origin4 : (![0, 0, 0, 0] : Fin 4 → Nat) = fun _ => 0 := funext fun a => by fin_cases a <;> rfl

/-- Reading the query buffer through its whole rectangle reads the buffer. -/
theorem load_query {κ : Kind} {sp : Space} (v : View sig κ sp S1x1x128x3 .f32) (f : v.ty.Contents (Elt F)) :
    v.readAt (Elt F) (Rect.unit (s := S1x1x128x3) ![0, 0, 0, 0] S1x1x128x3.size inb_S1x1x128x3_S1x1x128x3_0_0_0_0).toLoadRect f
      = v.read (Elt F) f :=
  (View.readAt_eq_ld v f _).trans (View.ld_unit_zero origin4 inb_S1x1x128x3_S1x1x128x3_0_0_0_0 _)

/-- Reading the key buffer through its whole rectangle reads the buffer. -/
theorem load_keys {κ : Kind} {sp : Space} (v : View sig κ sp S1x1x1024x3 .f32) (f : v.ty.Contents (Elt F)) :
    v.readAt (Elt F) (Rect.unit (s := S1x1x1024x3) ![0, 0, 0, 0] S1x1x1024x3.size inb_S1x1x1024x3_S1x1x1024x3_0_0_0_0).toLoadRect f
      = v.read (Elt F) f :=
  (View.readAt_eq_ld v f _).trans (View.ld_unit_zero origin4 inb_S1x1x1024x3_S1x1x1024x3_0_0_0_0 _)

/-- One store through the whole rectangle overwrites every element: whatever the buffer held, it then reads the
    stored value. -/
theorem read_overwritten {κ : Kind} {sp : Space} (v : View sig κ sp S1x1x128x3 .f32) (f : v.ty.Contents (Elt F))
    (p : Vec F S1x1x128x3 .f32) :
    v.read (Elt F) (v.writes (Elt F) f
        [⟨Rect.unit (s := S1x1x128x3) ![0, 0, 0, 0] S1x1x128x3.size inb_S1x1x128x3_S1x1x128x3_0_0_0_0, p⟩]) = p := by
  have hcov : ∀ y : S1x1x128x3.Idx, ∃ pc ∈ ([⟨Rect.unit (s := S1x1x128x3) ![0, 0, 0, 0] S1x1x128x3.size
      inb_S1x1x128x3_S1x1x128x3_0_0_0_0, p⟩] : List (View.Piece (Elt F) S1x1x128x3 .f32)), y ∈ pc.1.set :=
    fun y => ⟨_, List.mem_singleton_self _,
      View.mem_set_unit_zero (S := S1x1x128x3) origin4 inb_S1x1x128x3_S1x1x128x3_0_0_0_0 y⟩
  rw [View.read_writes_eq_canon v f _ hcov]
  exact View.canon_unit_zero (S := S1x1x128x3) origin4 inb_S1x1x128x3_S1x1x128x3_0_0_0_0 p

/-! ## The kernel function on whole staging buffers -/

set_option maxHeartbeats 1000000 in
/-- With the query buffer reading `x0`, the key buffer reading `x1` and the output buffer holding anything, the
    kernel function runs to the two inputs as they were and the output reading `stored x0 x1`: it reads both
    inputs whole, reads the output and drops what it read, and overwrites the whole output with a value computed
    from the two inputs alone. -/
theorem run_kernel (c : Dev nD) (E : Set ℕ) (i : grid0.Coords)
    (arg3 : Memref sig .tc .vmem S1x1x128x3 .f32) (harg3 : arg3.IsWhole)
    (arg4 : Memref sig .tc .vmem S1x1x1024x3 .f32) (harg4 : arg4.IsWhole)
    (arg5 : Memref sig .tc .vmem S1x1x128x3 .f32) (harg5 : arg5.IsWhole)
    (x0 : Vec F S1x1x128x3 .f32) (x1 : Vec F S1x1x1024x3 .f32) (K : PUnit → sProp 𝕄) :
    iprop(owns (c : Thread nD τ) arg3 fullShare x0 ∗ owns (c : Thread nD τ) arg4 fullShare x1
        ∗ (∃ d, owns (c : Thread nD τ) arg5 fullShare d)
        ∗ (iprop(owns (c : Thread nD τ) arg3 fullShare x0 ∗ owns (c : Thread nD τ) arg4 fullShare x1
            ∗ owns (c : Thread nD τ) arg5 fullShare (stored x0 x1)) -∗ K ⟨⟩))
      ⊢ wp frame (wpE (defs₀ (F := F)) Variants.none c none) E (cc0__desc_kernel i arg3 harg3 arg4 harg4 arg5 harg5) K := by
  sl_unfold [cc0__desc_kernel]; sl_unfold [cc0__desc_kernel_skel]
  sl_unfold [k0_part1]; sl_unfold [k0_part1_skel]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr
    · ipureintro; rfl
    · iexact H0
  isplitl [H1]
  · iexists f1; isplitr
    · ipureintro; rfl
    · iexact H1
  iexists _; isplitr
  swap
  · iexact H2
  ipureintro
  rw [read_overwritten, load_query, load_keys]
  rfl

/-! ## What the body finds in the two input buffers -/

/-- The block a fetch of window `w` at point `t` would bring is the window's tile of the entry contents. -/
theorem blockOf_eq_tile (c : Dev nD) (w : Fin cfg0.W) (t : Fin cfg0.N) : (dats m 0 c).blockOf w t = tile m c w t := by
  unfold Dat.blockOf tile; rw [A_eq]

/-- The query buffer holds the query tile of the point: the window is fetched at every point, and the body leaves
    the buffer as found. -/
theorem before_query (c : Dev nD) (t : Fin cfg0.N) (d) : (dats m 0 c).before 0 t d = tile m c 0 t := by
  rw [(dats m 0 c).before_in_eq_fetched 0 rfl (fun _ => rfl) (fun _ _ _ => rfl)
    (fun s => (after_query m c s).trans (blockOf_eq_tile m c 0 s).symm) t d]
  exact blockOf_eq_tile m c 0 t

/-- The key buffer holds the key set of the point's (batch, frame) slice at EVERY point, though it is fetched only at
    the first tile of a slice: between two fetches the block index does not move and the body leaves the buffer as
    found, so the block fetched last is still this point's block. -/
theorem before_keys (c : Dev nD) (t : Fin cfg0.N) (d) : (dats m 0 c).before 1 t d = tile m c 1 t := by
  rw [(dats m 0 c).before_in_eq_fetched 1 rfl (fun _ => rfl) (fun _ _ _ => rfl)
    (fun s => (after_keys m c s).trans (blockOf_eq_tile m c 1 s).symm) t d]
  exact blockOf_eq_tile m c 1 t

/-! ## The obligation at a point -/

/-- At point `t`: from the invariant, what the core owes and the three current staging buffers at what they hold,
    the kernel function called as the pipeline calls it runs to the same invariant and debt, the two input buffers
    at their blocks still and the output buffer at `stored` of the two blocks. -/
theorem at_point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t))) := by
  simp only [before_query, before_keys]
  rw [show (dats m 0 c).Φ t.succ = (dats m 0 c).Φ t.castSucc from rfl,
    show (dats m 0 c).owesAt () t.succ = (dats m 0 c).owesAt () t.castSucc from rfl,
    after_query, after_keys, after_out]
  iintro ⟨Hinv, Hdebt, ⟨%dq, Hq⟩, ⟨%dk, Hk⟩, ⟨%dout, Hout⟩⟩
  unfold bodyAt0
  iapply (run_kernel c Set.univ (grid0.coords t) _ _ _ _ _ _ (tile m c 0 t) (tile m c 1 t) _)
  isplitl [Hq]
  · iexact Hq
  isplitl [Hk]
  · iexact Hk
  isplitl [Hout]
  · iexists _; iexact Hout
  iintro ⟨Hq, Hk, Hout⟩
  isplitl [Hinv]
  · iexact Hinv
  isplitl [Hdebt]
  · iexact Hdebt
  isplitl [Hq]
  · iexact Hq
  isplitl [Hk]
  · iexact Hk
  iexact Hout

/-- The body obligation of the pipeline's proof data, at every point. -/
theorem body_obligation (c : Dev nD) :
    BodyObligation (dats (F := F) m 0 c) (defs₀ (F := F)) Variants.none () Set.univ := fun t => by
  rw [bigSep_W0, bigSep_W0]
  exact at_point m c t

end Cert.Kernel.Desc

end
-- ==== Proof.BitsLaunch.lean ====
/-
  The launch: from the body obligation to the whole run of @main — the region, then the one host reshape of the
  kernel's result into the program's result.
-/
import proofs.«140011_j7275674599831_1_alg».proof.Proof.BitsData
import Idealize.ShloMosaic.Lib.Pipeline.FrameSuffix

set_option maxRecDepth 16384

noncomputable section

namespace Cert.Kernel.Desc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element is the pipeline library's own, embedded whole; no core needs anything besides. -/
theorem launch_ghost :
    (ownU (initOf (Pipeline.cells (nD := nD) (τ := τ) cfgs cellOf_inj) (Pipeline.launchToks (nD := nD) (τ := τ) cfgs cellOf_inj)) : sProp 𝕄)
      ⊢ |={Set.univ}=> iprop(BI.own (emb₁ (initOf (Pipeline.cells (nD := nD) (τ := τ) cfgs cellOf_inj) (Pipeline.launchToks (nD := nD) (τ := τ) cfgs cellOf_inj)))
          ∗ bigSep Finset.univ fun _ : Dev nD => (BI.emp : sProp 𝕄)) := by
  rw [BI.bigSep_emp_const]
  have h : ∀ u, (ownU u : sProp 𝕄) ⊢ BI.own (emb₁ u) := fun _ => .rfl
  refine (h _).trans ?_
  iintro Hu
  imodintro
  isplitl [Hu]
  · iexact Hu
  · iempintro

/-- @main is the region and then one line of host operations; nothing runs before the region, so the region is
    entered at the launch contents. -/
theorem main_shape :
    Pipeline.HMainK (Ix := Unit) (Name := ℕ) (U := UR sig nD τ) (Lvl := ℕ) cfgs (0 : Fin 1) (defs₀ (F := F)) Variants.none m (main (F := F))
      (fun c b => StableHlo.after ([] : List (List (HloOp τ sig (Elt F)))).flatten (fun b => m (c, b)) b)
      (fun _ => Pipeline.chain (([hostOps1] : List (List (HloOp τ sig (Elt F)))).map StableHlo.seq)) :=
  Pipeline.hmain_around cfgs (0 : Fin 1) defs₀ Variants.none m main [] [hostOps1] trivial trivial (fun c => main_chain c)

/-- The two buffers behind the three windows, whole, are the three windows' holdings at entry: the coordinate
    array's full share is cut in its two halves, one for each window that reads it. -/
theorem arrays_of_bufs (c : Dev nD) :
    (Pipeline.arrBufs spec0 c (entry m c) : sProp 𝕄) ⊢ (dats m 0 c).arrays ((dats m 0 c).arrAt · 0) := by
  unfold Pipeline.arrBufs Dat.arrays
  rw [bigSep_W0, show Finset.univ.image (Pipeline.arrRef spec0) = {main_arg0, main_v0} from by decide,
    bigSep_insert (by decide), bigSep_singleton]
  rw [(arr_whole0 0).set_eq_univ, (arr_whole0 2).set_eq_univ, share_query, share_keys, share_out]
  refine (show iprop((((c : Thread nD τ).loc main_arg0) ↦{fullShare} entry m c main_arg0)
      ∗ (((c : Thread nD τ).loc main_v0) ↦{fullShare} entry m c main_v0)) ⊢ _ from ?_)
  iintro ⟨H0, H2⟩
  ihave H0 := (pointsTo_share (PosShare.mem_left_op_right fullShare)).1 $$ H0
  icases H0 with ⟨Hl, Hr⟩
  isplitl [Hl]; · iexact Hl
  isplitl [Hr]; · iexact Hr
  iexact H2

/-- Of what bypasses the region the kernel keeps the generator register for its invariant and leaves the two
    buffers that are no window's array where they are. -/
theorem route_rest (c : Dev nD) :
    iprop(Pipeline.unscopedRestP (Ix := Unit) (Name := ℕ) (U := UR sig nD τ) (Lvl := ℕ) (pcfgs (F := F) 0).pre spec0 c (entry m c)
        ∗ Pipeline.ownSems0 (fun k : PEmpty => k.elim) c ∗ unscopedSems0 c ∗ levels0 c ∗ prngReg c (ρ c) ∗ (BI.emp : sProp 𝕄))
      ⊢ |={Set.univ}=> iprop((∃ r, prngReg c r) ∗ Pipeline.unscopedRest (Ix := Unit) (Name := ℕ) (U := UR sig nD τ) (Lvl := ℕ) spec0 c (entry m c)) := by
  have hP := Pipeline.unscopedRestP_none (Ix := Unit) (Name := ℕ) (U := UR sig nD τ) (Lvl := ℕ) (Val := Elt F) (nD := nD) (τ := τ) spec0 c (entry m c)
  iintro ⟨HU, -, -, -, Hp, -⟩
  imodintro
  isplitl [Hp]
  · iexists (ρ c); iexact Hp
  · iapply (Entails.of_eq hP); iexact HU

/-- The invariant before the first point: the scoped buffers outside the pipeline and the generator register. -/
theorem inv_in (c : Dev nD) :
    iprop((∃ r, prngReg c r)
        ∗ Pipeline.prefHeld (Ix := Unit) (Name := ℕ) (U := UR sig nD τ) (Lvl := ℕ) (pcfgs (F := F) 0).pre c (fun _ => fullShare.right) ((cfgs 0).toPCfg_adm (Val := Elt F)).1
        ∗ Pipeline.scopedRest (Ix := Unit) (Name := ℕ) (U := UR sig nD τ) (Lvl := ℕ) (Val := Elt F) spec0 c)
      ⊢ ((dats m 0 c).Φ 0 : sProp 𝕄) := by
  show _ ⊢ Pipeline.ΦA spec0 c
  unfold Pipeline.ΦA
  iintro ⟨Hp, -, Hr⟩
  isplitl [Hr]
  · iexact Hr
  · iexact Hp

/-- The invariant after the last point gives the same two back; the kernel has no semaphore of its own. -/
theorem inv_out (c : Dev nD) :
    ((dats m 0 c).Φ (Fin.last cfg0.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec0 c) := by
  show Pipeline.ΦA spec0 c ⊢ _
  rw [Pipeline.ownSems0_none]
  unfold Pipeline.ΦA
  iintro ⟨Hr, Hp⟩
  isplitl [Hp]
  · iexact Hp
  isplitr
  · iempintro
  · iexact Hr

/-- Two whole buffers read against a final state: the memory holds their contents. -/
theorem read_final (c : Dev nD) (s' : Phys nD τ sig (Elt F)) (A : Buf (Elt F) ((c : Thread nD τ).loc main_arg1)) (B : Buf (Elt F) ((c : Thread nD τ).loc main_v1)) :
    iprop((∃ r, prngReg c r) ∗ ((((c : Thread nD τ).loc main_arg1) ↦{fullShare} A) ∗ (((c : Thread nD τ).loc main_v1) ↦{fullShare} B)) ∗ (SI s' : sProp 𝕄))
      ⊢ |={Set.univ}=> iprop(⌜s'.mem.mem ((c : Thread nD τ).loc main_v1) = B ∧ s'.mem.mem ((c : Thread nD τ).loc main_arg1) = A⌝ ∗ SI s') := by
  iintro ⟨-, ⟨Ha, Hv⟩, HSI⟩
  icombine HSI Ha gives %h1
  icombine HSI Hv gives %h2
  imodintro
  isplitr
  · ipureintro; exact ⟨Buf.eq_of_forall_mem_univ h2, Buf.eq_of_forall_mem_univ h1⟩
  · iexact HSI

/-- The coordinate array is only read: after every point it holds what it held at launch. -/
theorem arg0_kept (c : Dev nD) (n : Nat) : (dats m 0 c).arrAt 0 n = m ((c : Thread nD τ).loc main_arg0) :=
  ((dats (F := F) m 0 c).arrAt_in 0 rfl n).trans (A_eq m c 0)

/-- What is read at the end of what bypassed the region: the index array as launched, and the program's result
    buffer at the reshape of the kernel's output array. -/
def Zfin (c : Dev nD) : sProp 𝕄 :=
  iprop((((c : Thread nD τ).loc main_arg1) ↦{fullShare} m ((c : Thread nD τ).loc main_arg1))
    ∗ (((c : Thread nD τ).loc main_v1) ↦{fullShare} shapeCast S4x4x3072 ((dats m 0 c).arrAt 2 cfg0.N) shapeCasts_S4x4x1024x3_S4x4x3072))

set_option backward.isDefEq.respectTransparency.types false in
/-- After the region the one reshape runs holding the kernel's output array (window 2 holds it whole) and the
    result buffer; the two readers' halves of the coordinate array and the index array ride along. -/
theorem tail_run (c : Dev nD) (Q' : PUnit.{1} → sProp 𝕄) :
    iprop((iprop((dats m 0 c).arrays ((dats m 0 c).arrAt · cfg0.N) ∗ Zfin m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (entry m c))
      ⊢ wp frame (wpE (Pipeline.defs (pcfgs (F := F)) defs₀) (Variants.lift Variants.none) (c : Thread nD τ) none) Set.univ
          (Pipeline.chain [StableHlo.seq hostOps1]) Q' := by
  classical
  let W : Valuation τ sig (Elt F) :=
    Function.update (fun b => m (c, b)) (Proc.devRef .tc main_v0) ((dats m 0 c).arrAt 2 cfg0.N)
  have hW0 : W (Proc.devRef .tc main_v0) = (dats m 0 c).arrAt 2 cfg0.N := Function.update_self _ _ _
  have hW1 : W (Proc.devRef .tc main_v1) = m ((c : Thread nD τ).loc main_v1) :=
    Function.update_of_ne (StableHlo.devRef_ne_of_ne (by decide)) _ _
  have hne : (Proc.devRef (τ := τ) .tc main_v0) ∉ ({Proc.devRef .tc main_v1} : Finset (DevRef τ sig)) := by
    rw [Finset.mem_singleton]; exact StableHlo.devRef_ne_of_ne (by decide)
  have hsub : ∀ op ∈ (hostOps1 : List (HloOp τ sig (Elt F))), op.bufs ⊆ ({Proc.devRef .tc main_v0, Proc.devRef .tc main_v1} : Finset (DevRef τ sig)) := fun op h => by
    rcases List.mem_singleton.mp h with rfl; exact subset_rfl
  have hfresh : ∀ op ∈ (hostOps1 : List (HloOp τ sig (Elt F))), op.fresh = ∅ := fun op h => by
    rcases List.mem_singleton.mp h with rfl; rfl
  have hseq := StableHlo.wp_seq (defs := Pipeline.defs (pcfgs (F := F)) defs₀) (Ix := Unit) (Name := ℕ) (U := UR sig nD τ) (Lvl := ℕ)
    (Variants.lift Variants.none) none Set.univ c ({Proc.devRef .tc main_v0, Proc.devRef .tc main_v1} : Finset (DevRef τ sig))
    (fun _ => (pure ⟨⟩ : Prog (TpuEff nD τ sig (Elt F) (Pipeline.Sig Λ₀ (Fin 1) fun p => (pcfgs (F := F) p).Adm) .tc) PUnit)) (K := Q') hostOps1 hsub hfresh W
  have hheld : ∀ V' : Valuation τ sig (Elt F),
      (StableHlo.held (c : Thread nD τ) ({Proc.devRef .tc main_v0, Proc.devRef .tc main_v1} : Finset (DevRef τ sig)) V' : sProp 𝕄)
        = iprop((((c : Thread nD τ).loc main_v0) ↦{fullShare} V' (Proc.devRef .tc main_v0))
            ∗ (((c : Thread nD τ).loc main_v1) ↦{fullShare} V' (Proc.devRef .tc main_v1))) := fun V' => by
    unfold StableHlo.held
    rw [bigSep_insert hne, bigSep_singleton]
    rfl
  have hres0 : StableHlo.after (hostOps1 : List (HloOp τ sig (Elt F))) W (Proc.devRef .tc main_v0) = (dats m 0 c).arrAt 2 cfg0.N := by
    rw [StableHlo.after_cons, StableHlo.after_nil, StableHlo.reshape_result_ne main_v0 main_v1 rfl shapeCasts_S4x4x1024x3_S4x4x3072 _ _ W (by decide), hW0]
  have hres1 : StableHlo.after (hostOps1 : List (HloOp τ sig (Elt F))) W (Proc.devRef .tc main_v1)
      = shapeCast S4x4x3072 ((dats m 0 c).arrAt 2 cfg0.N) shapeCasts_S4x4x1024x3_S4x4x3072 := by
    rw [StableHlo.after_cons, StableHlo.after_nil, StableHlo.reshape_result main_v0 main_v1 rfl shapeCasts_S4x4x1024x3_S4x4x3072 _ _ W, hW0]
    rfl
  unfold Dat.arrays Zfin
  rw [bigSep_W0, (arr_whole0 0).set_eq_univ, (arr_whole0 2).set_eq_univ, share_query, share_keys, share_out, unscopedRest0_eq,
    Pipeline.chain_cons, Pipeline.chain_nil]
  rw [hheld W, hheld (StableHlo.after hostOps1 W), hres0, hres1, hW0, hW1] at hseq
  iintro ⟨Hk, Hb, ⟨H0, H1, H2⟩, ⟨Ha1, Hv1⟩⟩
  iapply hseq $$ [Hb H2 Hv1]
  · isplitl [Hb]; · iexact Hb
    isplitl [H2]; · iexact H2
    iexact Hv1
  iintro ⟨Hb, H2, Hv1⟩
  rw [wp_pure]
  imodintro
  iapply Hk
  isplitl [H0 H1 H2]
  · isplitl [H0]; · iexact H0
    isplitl [H1]; · iexact H1
    iexact H2
  · isplitl [Ha1]; · iexact Ha1
    iexact Hv1

/-- Every weakly fair run of @main ends; the result buffer then holds the row-major reshape of the output array as the
    write-backs of all 128 points left it, and the two argument arrays are as launched. -/
theorem run_of_body
    (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v1)
          = shapeCast S4x4x3072 ((dats m 0 c).arrAt 2 cfg0.N) shapeCasts_S4x4x1024x3_S4x4x3072
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (pcfgs (F := F)) (fun q => (cfgs q).toPCfg_adm (Val := Elt F)) (dats m) () cellOf_inj (0 : Fin 1)
    winFacts₀0 (Pipeline.OwnSemFacts.none _) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp))
    (u₀ := initOf (Pipeline.cells (nD := nD) (τ := τ) cfgs cellOf_inj) (Pipeline.launchToks (nD := nD) (τ := τ) cfgs cellOf_inj))
    (hu₀ := launch_ghost)
    (V := entry m) (hmain := main_shape m) (hsplit := arrays_of_bufs m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (entry m c))
    (Z' := Zfin m)
    (hX := route_rest m ρ) (hin := inv_in m) (hout := inv_out m) (htail := tail_run m)
    (QY := fun c s => s.mem ((c.tc : Thread nD τ).loc main_v1)
          = shapeCast S4x4x3072 ((dats m 0 c).arrAt 2 cfg0.N) shapeCasts_S4x4x1024x3_S4x4x3072
        ∧ s.mem ((c.tc : Thread nD τ).loc main_arg1) = m ((c.tc : Thread nD τ).loc main_arg1))
    (hY := fun c s' => read_final c s' _ _)
    (hQ := fun s h c => ⟨(h c).2.2.1, ((h c).1 0).trans (arg0_kept m c _), (h c).2.2.2⟩)

end Cert.Kernel.Desc

end
-- ==== Proof.IdealData.lean ====
/-
  The pairwise-descriptor kernel's pipeline, described point by point.

  The grid has 4 · 4 · 8 points (batch b, frame f, query tile i). At a point the body is handed three staging
  buffers: the QUERY tile (rows 128·i … 128·i+127 of the (b, f) slice of the coordinate array), the KEY set (all
  1024 rows of the same slice) and the OUTPUT tile. Both input windows read ONE array, the coordinate array; the
  query window moves at every point, the key window only when (b, f) moves, that is every eighth point. The body
  reads the two input buffers, reads (and ignores) the output buffer, and overwrites the whole output buffer with
  a value that is a function of the two input blocks alone: `stored q k` below.

  So, whatever the output buffer held before, after the body at point t it holds `stored (tile 0 t) (tile 1 t)`,
  and the two input buffers are left as found: that is the proof data `dats`. Each input window holds one HALF of
  the coordinate array's share (two readers of one array), the output window its array outright.
-/
import proofs.«140011_j7275674599831_1_alg».proof.Proof.Gen.KernelIdeal.Launch
import proofs.«140011_j7275674599831_1_alg».proof.Proof.Gen.KernelIdeal.Skeleton
import proofs.«140011_j7275674599831_1_alg».proof.Proof.Gen.KernelIdeal.Points
import Idealize.ShloMosaic.Lib.Pipeline.FrameBody
import Idealize.ShloMosaic.Lib.Tactic

set_option maxRecDepth 16384

noncomputable section

namespace Cert.KernelIdeal.Desc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ)

/-- What core `c`'s buffers hold when the region is entered: @main begins with the region, so the launch contents. -/
abbrev entry (c : Dev nD) (b : Ref sig .tc) : Buf (Elt F) ((c : Thread nD τ).loc b) := m ((c : Thread nD τ).loc b)

/-- Window `w`'s block of its array at point `t`: for the query window the 128 rows of tile i of slice (b, f), for the
    key window all 1024 rows of slice (b, f). -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- What the body stores into the output buffer, from the query block `q` and the key block `k`: the three
    coordinate differences, the distance, the switching weight and the three weighted row sums, laid side by side
    (the skeleton's payloads composed in the order the body computes them). -/
def stored (q : Vec F S1x1x128x3 .f32) (k : Vec F S1x1x1024x3 .f32) : Vec F S1x1x128x3 .f32 :=
  k0_pay1 (k0_pay4 q k) (k0_pay5 q k) (k0_pay6 q k) (k0_pay7 q k) (k0_pay8 q k) (k0_pay9 q k) (Scalar.ofBits .f32 0x3F800000#32)

/-- The pipeline's proof data on core `c`. -/
def dats (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => stored (tile m c 0 t) (tile m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

theorem after_query (c : Dev nD) (t : Fin cfg0.N) : (dats m 0 c).after 0 t = tile m c 0 t := by dsimp only [dats]
theorem after_keys (c : Dev nD) (t : Fin cfg0.N) : (dats m 0 c).after 1 t = tile m c 1 t := by dsimp only [dats]
theorem after_out (c : Dev nD) (t : Fin cfg0.N) :
    (dats m 0 c).after 2 t = stored (tile m c 0 t) (tile m c 1 t) := by dsimp only [dats]

theorem share_query (c : Dev nD) : (dats m 0 c).share 0 = fullShare.left := rfl
theorem share_keys (c : Dev nD) : (dats m 0 c).share 1 = fullShare.right := rfl
theorem share_out (c : Dev nD) : (dats m 0 c).share 2 = fullShare := rfl

end Cert.KernelIdeal.Desc

end
-- ==== Proof.IdealBody.lean ====
/-
  The body of the descriptor kernel at one grid point: from the query block, the key block and an output buffer
  holding anything, it runs to the same two input buffers and the output buffer at `stored` of the two blocks.
-/
import proofs.«140011_j7275674599831_1_alg».proof.Proof.IdealData
import Idealize.ShloMosaic.Lib.Pipeline.Value

set_option maxRecDepth 16384

noncomputable section

namespace Cert.KernelIdeal.Desc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## Accesses at the origin of a whole buffer -/

/-- The four offsets of an access at a rank-four buffer's origin are the constant zero. -/
theorem origin4 : (![0, 0, 0, 0] : Fin 4 → Nat) = fun _ => 0 := funext fun a => by fin_cases a <;> rfl

/-- Reading the query buffer through its whole rectangle reads the buffer. -/
theorem load_query {κ : Kind} {sp : Space} (v : View sig κ sp S1x1x128x3 .f32) (f : v.ty.Contents (Elt F)) :
    v.readAt (Elt F) (Rect.unit (s := S1x1x128x3) ![0, 0, 0, 0] S1x1x128x3.size inb_S1x1x128x3_S1x1x128x3_0_0_0_0).toLoadRect f
      = v.read (Elt F) f :=
  (View.readAt_eq_ld v f _).trans (View.ld_unit_zero origin4 inb_S1x1x128x3_S1x1x128x3_0_0_0_0 _)

/-- Reading the key buffer through its whole rectangle reads the buffer. -/
theorem load_keys {κ : Kind} {sp : Space} (v : View sig κ sp S1x1x1024x3 .f32) (f : v.ty.Contents (Elt F)) :
    v.readAt (Elt F) (Rect.unit (s := S1x1x1024x3) ![0, 0, 0, 0] S1x1x1024x3.size inb_S1x1x1024x3_S1x1x1024x3_0_0_0_0).toLoadRect f
      = v.read (Elt F) f :=
  (View.readAt_eq_ld v f _).trans (View.ld_unit_zero origin4 inb_S1x1x1024x3_S1x1x1024x3_0_0_0_0 _)

/-- One store through the whole rectangle overwrites every element: whatever the buffer held, it then reads the
    stored value. -/
theorem read_overwritten {κ : Kind} {sp : Space} (v : View sig κ sp S1x1x128x3 .f32) (f : v.ty.Contents (Elt F))
    (p : Vec F S1x1x128x3 .f32) :
    v.read (Elt F) (v.writes (Elt F) f
        [⟨Rect.unit (s := S1x1x128x3) ![0, 0, 0, 0] S1x1x128x3.size inb_S1x1x128x3_S1x1x128x3_0_0_0_0, p⟩]) = p := by
  have hcov : ∀ y : S1x1x128x3.Idx, ∃ pc ∈ ([⟨Rect.unit (s := S1x1x128x3) ![0, 0, 0, 0] S1x1x128x3.size
      inb_S1x1x128x3_S1x1x128x3_0_0_0_0, p⟩] : List (View.Piece (Elt F) S1x1x128x3 .f32)), y ∈ pc.1.set :=
    fun y => ⟨_, List.mem_singleton_self _,
      View.mem_set_unit_zero (S := S1x1x128x3) origin4 inb_S1x1x128x3_S1x1x128x3_0_0_0_0 y⟩
  rw [View.read_writes_eq_canon v f _ hcov]
  exact View.canon_unit_zero (S := S1x1x128x3) origin4 inb_S1x1x128x3_S1x1x128x3_0_0_0_0 p

/-! ## The kernel function on whole staging buffers -/

set_option maxHeartbeats 1000000 in
/-- With the query buffer reading `x0`, the key buffer reading `x1` and the output buffer holding anything, the
    kernel function runs to the two inputs as they were and the output reading `stored x0 x1`: it reads both
    inputs whole, reads the output and drops what it read, and overwrites the whole output with a value computed
    from the two inputs alone. -/
theorem run_kernel (c : Dev nD) (E : Set ℕ) (i : grid0.Coords)
    (arg3 : Memref sig .tc .vmem S1x1x128x3 .f32) (harg3 : arg3.IsWhole)
    (arg4 : Memref sig .tc .vmem S1x1x1024x3 .f32) (harg4 : arg4.IsWhole)
    (arg5 : Memref sig .tc .vmem S1x1x128x3 .f32) (harg5 : arg5.IsWhole)
    (x0 : Vec F S1x1x128x3 .f32) (x1 : Vec F S1x1x1024x3 .f32) (K : PUnit → sProp 𝕄) :
    iprop(owns (c : Thread nD τ) arg3 fullShare x0 ∗ owns (c : Thread nD τ) arg4 fullShare x1
        ∗ (∃ d, owns (c : Thread nD τ) arg5 fullShare d)
        ∗ (iprop(owns (c : Thread nD τ) arg3 fullShare x0 ∗ owns (c : Thread nD τ) arg4 fullShare x1
            ∗ owns (c : Thread nD τ) arg5 fullShare (stored x0 x1)) -∗ K ⟨⟩))
      ⊢ wp frame (wpE (defs₀ (F := F)) Variants.none c none) E (cc0__desc_kernel i arg3 harg3 arg4 harg4 arg5 harg5) K := by
  sl_unfold [cc0__desc_kernel]; sl_unfold [cc0__desc_kernel_skel]
  sl_unfold [k0_part1]; sl_unfold [k0_part1_skel]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr
    · ipureintro; rfl
    · iexact H0
  isplitl [H1]
  · iexists f1; isplitr
    · ipureintro; rfl
    · iexact H1
  iexists _; isplitr
  swap
  · iexact H2
  ipureintro
  rw [read_overwritten, load_query, load_keys]
  rfl

/-! ## What the body finds in the two input buffers -/

/-- The block a fetch of window `w` at point `t` would bring is the window's tile of the entry contents. -/
theorem blockOf_eq_tile (c : Dev nD) (w : Fin cfg0.W) (t : Fin cfg0.N) : (dats m 0 c).blockOf w t = tile m c w t := by
  unfold Dat.blockOf tile; rw [A_eq]

/-- The query buffer holds the query tile of the point: the window is fetched at every point, and the body leaves
    the buffer as found. -/
theorem before_query (c : Dev nD) (t : Fin cfg0.N) (d) : (dats m 0 c).before 0 t d = tile m c 0 t := by
  rw [(dats m 0 c).before_in_eq_fetched 0 rfl (fun _ => rfl) (fun _ _ _ => rfl)
    (fun s => (after_query m c s).trans (blockOf_eq_tile m c 0 s).symm) t d]
  exact blockOf_eq_tile m c 0 t

/-- The key buffer holds the key set of the point's (batch, frame) slice at EVERY point, though it is fetched only at
    the first tile of a slice: between two fetches the block index does not move and the body leaves the buffer as
    found, so the block fetched last is still this point's block. -/
theorem before_keys (c : Dev nD) (t : Fin cfg0.N) (d) : (dats m 0 c).before 1 t d = tile m c 1 t := by
  rw [(dats m 0 c).before_in_eq_fetched 1 rfl (fun _ => rfl) (fun _ _ _ => rfl)
    (fun s => (after_keys m c s).trans (blockOf_eq_tile m c 1 s).symm) t d]
  exact blockOf_eq_tile m c 1 t

/-! ## The obligation at a point -/

/-- At point `t`: from the invariant, what the core owes and the three current staging buffers at what they hold,
    the kernel function called as the pipeline calls it runs to the same invariant and debt, the two input buffers
    at their blocks still and the output buffer at `stored` of the two blocks. -/
theorem at_point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t))) := by
  simp only [before_query, before_keys]
  rw [show (dats m 0 c).Φ t.succ = (dats m 0 c).Φ t.castSucc from rfl,
    show (dats m 0 c).owesAt () t.succ = (dats m 0 c).owesAt () t.castSucc from rfl,
    after_query, after_keys, after_out]
  iintro ⟨Hinv, Hdebt, ⟨%dq, Hq⟩, ⟨%dk, Hk⟩, ⟨%dout, Hout⟩⟩
  unfold bodyAt0
  iapply (run_kernel c Set.univ (grid0.coords t) _ _ _ _ _ _ (tile m c 0 t) (tile m c 1 t) _)
  isplitl [Hq]
  · iexact Hq
  isplitl [Hk]
  · iexact Hk
  isplitl [Hout]
  · iexists _; iexact Hout
  iintro ⟨Hq, Hk, Hout⟩
  isplitl [Hinv]
  · iexact Hinv
  isplitl [Hdebt]
  · iexact Hdebt
  isplitl [Hq]
  · iexact Hq
  isplitl [Hk]
  · iexact Hk
  iexact Hout

/-- The body obligation of the pipeline's proof data, at every point. -/
theorem body_obligation (c : Dev nD) :
    BodyObligation (dats (F := F) m 0 c) (defs₀ (F := F)) Variants.none () Set.univ := fun t => by
  rw [bigSep_W0, bigSep_W0]
  exact at_point m c t

end Cert.KernelIdeal.Desc

end
-- ==== Proof.IdealLaunch.lean ====
/-
  The launch: from the body obligation to the whole run of @main — the region, then the one host reshape of the
  kernel's result into the program's result.
-/
import proofs.«140011_j7275674599831_1_alg».proof.Proof.IdealData
import Idealize.ShloMosaic.Lib.Pipeline.FrameSuffix

set_option maxRecDepth 16384

noncomputable section

namespace Cert.KernelIdeal.Desc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The launch's ghost element is the pipeline library's own, embedded whole; no core needs anything besides. -/
theorem launch_ghost :
    (ownU (initOf (Pipeline.cells (nD := nD) (τ := τ) cfgs cellOf_inj) (Pipeline.launchToks (nD := nD) (τ := τ) cfgs cellOf_inj)) : sProp 𝕄)
      ⊢ |={Set.univ}=> iprop(BI.own (emb₁ (initOf (Pipeline.cells (nD := nD) (τ := τ) cfgs cellOf_inj) (Pipeline.launchToks (nD := nD) (τ := τ) cfgs cellOf_inj)))
          ∗ bigSep Finset.univ fun _ : Dev nD => (BI.emp : sProp 𝕄)) := by
  rw [BI.bigSep_emp_const]
  have h : ∀ u, (ownU u : sProp 𝕄) ⊢ BI.own (emb₁ u) := fun _ => .rfl
  refine (h _).trans ?_
  iintro Hu
  imodintro
  isplitl [Hu]
  · iexact Hu
  · iempintro

/-- @main is the region and then one line of host operations; nothing runs before the region, so the region is
    entered at the launch contents. -/
theorem main_shape :
    Pipeline.HMainK (Ix := Unit) (Name := ℕ) (U := UR sig nD τ) (Lvl := ℕ) cfgs (0 : Fin 1) (defs₀ (F := F)) Variants.none m (main (F := F))
      (fun c b => StableHlo.after ([] : List (List (HloOp τ sig (Elt F)))).flatten (fun b => m (c, b)) b)
      (fun _ => Pipeline.chain (([hostOps1] : List (List (HloOp τ sig (Elt F)))).map StableHlo.seq)) :=
  Pipeline.hmain_around cfgs (0 : Fin 1) defs₀ Variants.none m main [] [hostOps1] trivial trivial (fun c => main_chain c)

/-- The two buffers behind the three windows, whole, are the three windows' holdings at entry: the coordinate
    array's full share is cut in its two halves, one for each window that reads it. -/
theorem arrays_of_bufs (c : Dev nD) :
    (Pipeline.arrBufs spec0 c (entry m c) : sProp 𝕄) ⊢ (dats m 0 c).arrays ((dats m 0 c).arrAt · 0) := by
  unfold Pipeline.arrBufs Dat.arrays
  rw [bigSep_W0, show Finset.univ.image (Pipeline.arrRef spec0) = {main_arg0, main_v0} from by decide,
    bigSep_insert (by decide), bigSep_singleton]
  rw [(arr_whole0 0).set_eq_univ, (arr_whole0 2).set_eq_univ, share_query, share_keys, share_out]
  refine (show iprop((((c : Thread nD τ).loc main_arg0) ↦{fullShare} entry m c main_arg0)
      ∗ (((c : Thread nD τ).loc main_v0) ↦{fullShare} entry m c main_v0)) ⊢ _ from ?_)
  iintro ⟨H0, H2⟩
  ihave H0 := (pointsTo_share (PosShare.mem_left_op_right fullShare)).1 $$ H0
  icases H0 with ⟨Hl, Hr⟩
  isplitl [Hl]; · iexact Hl
  isplitl [Hr]; · iexact Hr
  iexact H2

/-- Of what bypasses the region the kernel keeps the generator register for its invariant and leaves the two
    buffers that are no window's array where they are. -/
theorem route_rest (c : Dev nD) :
    iprop(Pipeline.unscopedRestP (Ix := Unit) (Name := ℕ) (U := UR sig nD τ) (Lvl := ℕ) (pcfgs (F := F) 0).pre spec0 c (entry m c)
        ∗ Pipeline.ownSems0 (fun k : PEmpty => k.elim) c ∗ unscopedSems0 c ∗ levels0 c ∗ prngReg c (ρ c) ∗ (BI.emp : sProp 𝕄))
      ⊢ |={Set.univ}=> iprop((∃ r, prngReg c r) ∗ Pipeline.unscopedRest (Ix := Unit) (Name := ℕ) (U := UR sig nD τ) (Lvl := ℕ) spec0 c (entry m c)) := by
  have hP := Pipeline.unscopedRestP_none (Ix := Unit) (Name := ℕ) (U := UR sig nD τ) (Lvl := ℕ) (Val := Elt F) (nD := nD) (τ := τ) spec0 c (entry m c)
  iintro ⟨HU, -, -, -, Hp, -⟩
  imodintro
  isplitl [Hp]
  · iexists (ρ c); iexact Hp
  · iapply (Entails.of_eq hP); iexact HU

/-- The invariant before the first point: the scoped buffers outside the pipeline and the generator register. -/
theorem inv_in (c : Dev nD) :
    iprop((∃ r, prngReg c r)
        ∗ Pipeline.prefHeld (Ix := Unit) (Name := ℕ) (U := UR sig nD τ) (Lvl := ℕ) (pcfgs (F := F) 0).pre c (fun _ => fullShare.right) ((cfgs 0).toPCfg_adm (Val := Elt F)).1
        ∗ Pipeline.scopedRest (Ix := Unit) (Name := ℕ) (U := UR sig nD τ) (Lvl := ℕ) (Val := Elt F) spec0 c)
      ⊢ ((dats m 0 c).Φ 0 : sProp 𝕄) := by
  show _ ⊢ Pipeline.ΦA spec0 c
  unfold Pipeline.ΦA
  iintro ⟨Hp, -, Hr⟩
  isplitl [Hr]
  · iexact Hr
  · iexact Hp

/-- The invariant after the last point gives the same two back; the kernel has no semaphore of its own. -/
theorem inv_out (c : Dev nD) :
    ((dats m 0 c).Φ (Fin.last cfg0.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec0 c) := by
  show Pipeline.ΦA spec0 c ⊢ _
  rw [Pipeline.ownSems0_none]
  unfold Pipeline.ΦA
  iintro ⟨Hr, Hp⟩
  isplitl [Hp]
  · iexact Hp
  isplitr
  · iempintro
  · iexact Hr

/-- Two whole buffers read against a final state: the memory holds their contents. -/
theorem read_final (c : Dev nD) (s' : Phys nD τ sig (Elt F)) (A : Buf (Elt F) ((c : Thread nD τ).loc main_arg1)) (B : Buf (Elt F) ((c : Thread nD τ).loc main_v1)) :
    iprop((∃ r, prngReg c r) ∗ ((((c : Thread nD τ).loc main_arg1) ↦{fullShare} A) ∗ (((c : Thread nD τ).loc main_v1) ↦{fullShare} B)) ∗ (SI s' : sProp 𝕄))
      ⊢ |={Set.univ}=> iprop(⌜s'.mem.mem ((c : Thread nD τ).loc main_v1) = B ∧ s'.mem.mem ((c : Thread nD τ).loc main_arg1) = A⌝ ∗ SI s') := by
  iintro ⟨-, ⟨Ha, Hv⟩, HSI⟩
  icombine HSI Ha gives %h1
  icombine HSI Hv gives %h2
  imodintro
  isplitr
  · ipureintro; exact ⟨Buf.eq_of_forall_mem_univ h2, Buf.eq_of_forall_mem_univ h1⟩
  · iexact HSI

/-- The coordinate array is only read: after every point it holds what it held at launch. -/
theorem arg0_kept (c : Dev nD) (n : Nat) : (dats m 0 c).arrAt 0 n = m ((c : Thread nD τ).loc main_arg0) :=
  ((dats (F := F) m 0 c).arrAt_in 0 rfl n).trans (A_eq m c 0)

/-- What is read at the end of what bypassed the region: the index array as launched, and the program's result
    buffer at the reshape of the kernel's output array. -/
def Zfin (c : Dev nD) : sProp 𝕄 :=
  iprop((((c : Thread nD τ).loc main_arg1) ↦{fullShare} m ((c : Thread nD τ).loc main_arg1))
    ∗ (((c : Thread nD τ).loc main_v1) ↦{fullShare} shapeCast S4x4x3072 ((dats m 0 c).arrAt 2 cfg0.N) shapeCasts_S4x4x1024x3_S4x4x3072))

set_option backward.isDefEq.respectTransparency.types false in
/-- After the region the one reshape runs holding the kernel's output array (window 2 holds it whole) and the
    result buffer; the two readers' halves of the coordinate array and the index array ride along. -/
theorem tail_run (c : Dev nD) (Q' : PUnit.{1} → sProp 𝕄) :
    iprop((iprop((dats m 0 c).arrays ((dats m 0 c).arrAt · cfg0.N) ∗ Zfin m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (entry m c))
      ⊢ wp frame (wpE (Pipeline.defs (pcfgs (F := F)) defs₀) (Variants.lift Variants.none) (c : Thread nD τ) none) Set.univ
          (Pipeline.chain [StableHlo.seq hostOps1]) Q' := by
  classical
  let W : Valuation τ sig (Elt F) :=
    Function.update (fun b => m (c, b)) (Proc.devRef .tc main_v0) ((dats m 0 c).arrAt 2 cfg0.N)
  have hW0 : W (Proc.devRef .tc main_v0) = (dats m 0 c).arrAt 2 cfg0.N := Function.update_self _ _ _
  have hW1 : W (Proc.devRef .tc main_v1) = m ((c : Thread nD τ).loc main_v1) :=
    Function.update_of_ne (StableHlo.devRef_ne_of_ne (by decide)) _ _
  have hne : (Proc.devRef (τ := τ) .tc main_v0) ∉ ({Proc.devRef .tc main_v1} : Finset (DevRef τ sig)) := by
    rw [Finset.mem_singleton]; exact StableHlo.devRef_ne_of_ne (by decide)
  have hsub : ∀ op ∈ (hostOps1 : List (HloOp τ sig (Elt F))), op.bufs ⊆ ({Proc.devRef .tc main_v0, Proc.devRef .tc main_v1} : Finset (DevRef τ sig)) := fun op h => by
    rcases List.mem_singleton.mp h with rfl; exact subset_rfl
  have hfresh : ∀ op ∈ (hostOps1 : List (HloOp τ sig (Elt F))), op.fresh = ∅ := fun op h => by
    rcases List.mem_singleton.mp h with rfl; rfl
  have hseq := StableHlo.wp_seq (defs := Pipeline.defs (pcfgs (F := F)) defs₀) (Ix := Unit) (Name := ℕ) (U := UR sig nD τ) (Lvl := ℕ)
    (Variants.lift Variants.none) none Set.univ c ({Proc.devRef .tc main_v0, Proc.devRef .tc main_v1} : Finset (DevRef τ sig))
    (fun _ => (pure ⟨⟩ : Prog (TpuEff nD τ sig (Elt F) (Pipeline.Sig Λ₀ (Fin 1) fun p => (pcfgs (F := F) p).Adm) .tc) PUnit)) (K := Q') hostOps1 hsub hfresh W
  have hheld : ∀ V' : Valuation τ sig (Elt F),
      (StableHlo.held (c : Thread nD τ) ({Proc.devRef .tc main_v0, Proc.devRef .tc main_v1} : Finset (DevRef τ sig)) V' : sProp 𝕄)
        = iprop((((c : Thread nD τ).loc main_v0) ↦{fullShare} V' (Proc.devRef .tc main_v0))
            ∗ (((c : Thread nD τ).loc main_v1) ↦{fullShare} V' (Proc.devRef .tc main_v1))) := fun V' => by
    unfold StableHlo.held
    rw [bigSep_insert hne, bigSep_singleton]
    rfl
  have hres0 : StableHlo.after (hostOps1 : List (HloOp τ sig (Elt F))) W (Proc.devRef .tc main_v0) = (dats m 0 c).arrAt 2 cfg0.N := by
    rw [StableHlo.after_cons, StableHlo.after_nil, StableHlo.reshape_result_ne main_v0 main_v1 rfl shapeCasts_S4x4x1024x3_S4x4x3072 _ _ W (by decide), hW0]
  have hres1 : StableHlo.after (hostOps1 : List (HloOp τ sig (Elt F))) W (Proc.devRef .tc main_v1)
      = shapeCast S4x4x3072 ((dats m 0 c).arrAt 2 cfg0.N) shapeCasts_S4x4x1024x3_S4x4x3072 := by
    rw [StableHlo.after_cons, StableHlo.after_nil, StableHlo.reshape_result main_v0 main_v1 rfl shapeCasts_S4x4x1024x3_S4x4x3072 _ _ W, hW0]
    rfl
  unfold Dat.arrays Zfin
  rw [bigSep_W0, (arr_whole0 0).set_eq_univ, (arr_whole0 2).set_eq_univ, share_query, share_keys, share_out, unscopedRest0_eq,
    Pipeline.chain_cons, Pipeline.chain_nil]
  rw [hheld W, hheld (StableHlo.after hostOps1 W), hres0, hres1, hW0, hW1] at hseq
  iintro ⟨Hk, Hb, ⟨H0, H1, H2⟩, ⟨Ha1, Hv1⟩⟩
  iapply hseq $$ [Hb H2 Hv1]
  · isplitl [Hb]; · iexact Hb
    isplitl [H2]; · iexact H2
    iexact Hv1
  iintro ⟨Hb, H2, Hv1⟩
  rw [wp_pure]
  imodintro
  iapply Hk
  isplitl [H0 H1 H2]
  · isplitl [H0]; · iexact H0
    isplitl [H1]; · iexact H1
    iexact H2
  · isplitl [Ha1]; · iexact Ha1
    iexact Hv1

/-- Every weakly fair run of @main ends; the result buffer then holds the row-major reshape of the output array as the
    write-backs of all 128 points left it, and the two argument arrays are as launched. -/
theorem run_of_body
    (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v1)
          = shapeCast S4x4x3072 ((dats m 0 c).arrAt 2 cfg0.N) shapeCasts_S4x4x1024x3_S4x4x3072
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (pcfgs (F := F)) (fun q => (cfgs q).toPCfg_adm (Val := Elt F)) (dats m) () cellOf_inj (0 : Fin 1)
    winFacts₀0 (Pipeline.OwnSemFacts.none _) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp))
    (u₀ := initOf (Pipeline.cells (nD := nD) (τ := τ) cfgs cellOf_inj) (Pipeline.launchToks (nD := nD) (τ := τ) cfgs cellOf_inj))
    (hu₀ := launch_ghost)
    (V := entry m) (hmain := main_shape m) (hsplit := arrays_of_bufs m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (entry m c))
    (Z' := Zfin m)
    (hX := route_rest m ρ) (hin := inv_in m) (hout := inv_out m) (htail := tail_run m)
    (QY := fun c s => s.mem ((c.tc : Thread nD τ).loc main_v1)
          = shapeCast S4x4x3072 ((dats m 0 c).arrAt 2 cfg0.N) shapeCasts_S4x4x1024x3_S4x4x3072
        ∧ s.mem ((c.tc : Thread nD τ).loc main_arg1) = m ((c.tc : Thread nD τ).loc main_arg1))
    (hY := fun c s' => read_final c s' _ _)
    (hQ := fun s h c => ⟨(h c).2.2.1, ((h c).1 0).trans (arg0_kept m c _), (h c).2.2.2⟩)

end Cert.KernelIdeal.Desc

end
-- ==== Proof.Spec.lean ====
/-
  The descriptor, as one function of the coordinate array.

  For a batch b, a frame f, an atom i and a channel c (three channels: the coordinates of a point of space),

      desc a (b, f, i, c) = ∑ over the 1024 atoms j of  weight (dist i j) · (a (b,f,i,c) − a (b,f,j,c)),

  where `dist i j` is the square root of the three squared coordinate differences of atoms i and j, added left to
  right, plus the softening term, and `weight` is the switching function: one below the inner radius, zero from the
  outer radius on, and ½ cos(π u) + ½ between, u being the distance past the inner radius as a fraction, 2/11 of it,
  of the shell's width 11/2. Every float word that occurs is kept as the word it is; only the fraction 2/11 is a
  real number. No array of a program is mentioned here: both programs are compared with this function.
-/
import Idealize.ShloMosaic.PureOps.Ideal
import Idealize.ShloMosaic.PureOps.Ideal.Laws
import Idealize.ShloMosaic.Lib.ValueIdx

noncomputable section

open scoped BigOperators

namespace Cert.DescSpec

open Idealize.ShloMosaic Idealize.ShloMosaic.ValueIdx

/-- The coordinate array's shape: batch, frame, atom, channel. -/
abbrev Coords : Shape := ⟨4, ![4, 4, 1024, 3]⟩

/-- The softening term under the root, the word of 1e-10. -/
abbrev soft : EReal := Ideal.ofBits .f32 0x2EDBE6FF#32
/-- The word of one half: the inner radius, and the cosine's scale and offset. -/
abbrev half : EReal := Ideal.ofBits .f32 0x3F000000#32
/-- The word of six: the outer radius. -/
abbrev outer : EReal := Ideal.ofBits .f32 0x40C00000#32
/-- The word of the single-precision π. -/
abbrev piWord : EReal := Ideal.ofBits .f32 0x40490FDB#32
/-- The words of one and of zero: the weight inside the inner radius and beyond the outer one. -/
abbrev oneWord : EReal := Ideal.ofBits .f32 0x3F800000#32
abbrev zeroWord : EReal := Ideal.ofBits .f32 0x00000000#32

/-- The distance of two atoms from their three coordinate differences. -/
def dist (x y z : EReal) : EReal := Ideal.sqrt (((x * x + y * y) + z * z) + soft)

/-- The switching weight of a distance. -/
def weight (r : EReal) : EReal :=
  Scalar.select (Ideal.cmp .olt r half) oneWord
    (Scalar.select (Ideal.cmp .olt r outer)
      (half * Ideal.cos (piWord * ((r - half) * ((2 / 11 : ℝ) : EReal))) + half)
      zeroWord)

/-- The difference of atoms i and j of slice (b, f) in channel c. -/
def delta (a : Coords.Idx → EReal) (b f : Fin 4) (i j : Fin 1024) (c : Fin 3) : EReal :=
  a (ix4 b f i c) - a (ix4 b f j c)

/-- One term of the descriptor's sum: atom j's weighted difference to atom i, in channel c. -/
def term (a : Coords.Idx → EReal) (b f : Fin 4) (i j : Fin 1024) (c : Fin 3) : EReal :=
  weight (dist (delta a b f i j 0) (delta a b f i j 1) (delta a b f i j 2)) * delta a b f i j c

/-- The descriptor at explicit coordinates. -/
def descAt (a : Coords.Idx → EReal) (b f : Fin 4) (i : Fin 1024) (c : Fin 3) : EReal :=
  ∑ j : Fin 1024, term a b f i j c

/-- The descriptor as an array of the coordinate array's shape. -/
def desc (a : Coords.Idx → EReal) : Coords.Idx → EReal := fun p => descAt a (p 0) (p 1) (p 2) (p 3)

theorem desc_ix4 (a : Coords.Idx → EReal) (b f : Fin 4) (i : Fin 1024) (c : Fin 3) :
    desc a (ix4 b f i c) = descAt a b f i c := rfl

/-- The reference divides by the shell's width 11/2 where the kernel multiplies by 2/11: on every extended real the
    quotient by a nonzero real is the product with its reciprocal. -/
theorem div_width (x : EReal) : Ideal.div x (((11 / 2 : ℝ)) : EReal) = x * ((2 / 11 : ℝ) : EReal) := by
  rw [Ideal.div_coe (by norm_num : (11 / 2 : ℝ) ≠ 0)]
  norm_num

end Cert.DescSpec

end
-- ==== Proof.IdealPayload.lean ====
/-
  What the body stores, read at one entry: row r, channel c of the output tile is the sum over the 1024 key rows j of
  the switching weight of the distance between query row r and key row j, times their difference in channel c.
-/
import proofs.«140011_j7275674599831_1_alg».proof.Proof.IdealData
import proofs.«140011_j7275674599831_1_alg».proof.Proof.Spec
import Idealize.ShloMosaic.Lib.Pipeline.Value
import Idealize.ShloMosaic.Lib.ValueLayout
import Idealize.ShloMosaic.PureOps.IdealRules

set_option maxRecDepth 16384

noncomputable section

namespace Cert.KernelIdeal.Desc

open Idealize.ShloMosaic Idealize.ShloMosaic.ValueIdx
open Cert.KernelIdeal Cert.KernelIdeal.Gen
open scoped BigOperators

/-- The query tile viewed as a matrix reads row r, channel c of the tile. -/
theorem pay2_apply (q : Vec Ideal S1x1x128x3 .f32) (r : Fin 128) (c : Fin 3) :
    k0_pay2 (F := Ideal) q (ix2 r c) = q (ix4 0 0 r c) := by
  unfold k0_pay2
  exact shapeCast_apply q shapeCasts_S1x1x128x3_S128x3 (ix2 r c) (ix4 0 0 r c) (by
    rw [Shape.rowMajor_val_four, Shape.rowMajor_val_two]
    show ((0 * 1 + 0) * 128 + r.val) * 3 + c.val = r.val * 3 + c.val
    omega)

/-- The key set viewed as a matrix and transposed reads, at (channel c, row j), row j, channel c of the set. -/
theorem pay3_apply (k : Vec Ideal S1x1x1024x3 .f32) (c : Fin 3) (j : Fin 1024) :
    k0_pay3 (F := Ideal) k (ix2 c j) = k (ix4 0 0 j c) := by
  unfold k0_pay3
  refine (transpose_ix2_apply _ transposes_S1024x3_p1_0_S3x1024 c j).trans ?_
  exact shapeCast_apply k shapeCasts_S1x1x1024x3_S1024x3 (ix2 j c) (ix4 0 0 j c) (by
    rw [Shape.rowMajor_val_four, Shape.rowMajor_val_two]
    show ((0 * 1 + 0) * 1024 + j.val) * 3 + c.val = j.val * 3 + c.val
    omega)

/-- One column broadcast across many: an [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The outer difference of one channel: column `o` of a [128, 3] matrix spread across the lanes, less row `o` of a
    [3, 1024] matrix spread down the rows, reads at (r, j) the difference of the two entries. -/
theorem outer_diff_apply (X : FVec Ideal S128x3 .f32) (Y : FVec Ideal S3x1024 .f32) (o : Nat) (c : Fin 3) (hc : c.val = o)
    (hY : S3x1024.Slices ![o, 0] S1x1024) (hX : S128x3.Slices ![0, o] S128x1)
    (hbX : S128x1.Broadcasts S128x1024) (hbY : S1x1024.Broadcasts S128x1024) (r : Fin 128) (j : Fin 1024) :
    subf (broadcastTo S128x1024 (extractStridedSlice S128x1 ![0, o] X hX) hbX)
        (broadcastTo S128x1024 (extractStridedSlice S1x1024 ![o, 0] Y hY) hbY) (ix2 r j)
      = X (ix2 r c) - Y (ix2 c j) := by
  refine (subf_apply _ _ (ix2 r j)).trans ?_
  refine congrArg₂ (· - ·) ?_ ?_
  · refine (broadcastTo_a1_ab_apply _ hbX r j).trans ?_
    exact slice2_axis1_apply o X hX r (0 : Fin 1) c (by rw [hc]; rfl)
  · refine (broadcastTo_1b_ab_apply _ hbY r j).trans ?_
    exact slice2_axis0_apply o Y hY (0 : Fin 1) j c (by rw [hc]; rfl)

/-- Channel 0's outer difference at (r, j). -/
theorem pay4_apply (q : Vec Ideal S1x1x128x3 .f32) (k : Vec Ideal S1x1x1024x3 .f32) (r : Fin 128) (j : Fin 1024) :
    k0_pay4 (F := Ideal) q k (ix2 r j) = q (ix4 0 0 r 0) - k (ix4 0 0 j 0) := by
  unfold k0_pay4
  refine (outer_diff_apply (k0_pay2 q) (k0_pay3 k) 0 0 rfl slices_S3x1024_o0_0_S1x1024 slices_S128x3_o0_0_S128x1
    broadcasts_S128x1_S128x1024 broadcasts_S1x1024_S128x1024 r j).trans ?_
  exact congrArg₂ (· - ·) (pay2_apply q r 0) (pay3_apply k 0 j)

/-- Channel 1's outer difference at (r, j). -/
theorem pay5_apply (q : Vec Ideal S1x1x128x3 .f32) (k : Vec Ideal S1x1x1024x3 .f32) (r : Fin 128) (j : Fin 1024) :
    k0_pay5 (F := Ideal) q k (ix2 r j) = q (ix4 0 0 r 1) - k (ix4 0 0 j 1) := by
  unfold k0_pay5
  refine (outer_diff_apply (k0_pay2 q) (k0_pay3 k) 1 1 rfl slices_S3x1024_o1_0_S1x1024 slices_S128x3_o0_1_S128x1
    broadcasts_S128x1_S128x1024 broadcasts_S1x1024_S128x1024 r j).trans ?_
  exact congrArg₂ (· - ·) (pay2_apply q r 1) (pay3_apply k 1 j)

/-- Channel 2's outer difference at (r, j). -/
theorem pay6_apply (q : Vec Ideal S1x1x128x3 .f32) (k : Vec Ideal S1x1x1024x3 .f32) (r : Fin 128) (j : Fin 1024) :
    k0_pay6 (F := Ideal) q k (ix2 r j) = q (ix4 0 0 r 2) - k (ix4 0 0 j 2) := by
  unfold k0_pay6
  refine (outer_diff_apply (k0_pay2 q) (k0_pay3 k) 2 2 rfl slices_S3x1024_o2_0_S1x1024 slices_S128x3_o0_2_S128x1
    broadcasts_S128x1_S128x1024 broadcasts_S1x1024_S128x1024 r j).trans ?_
  exact congrArg₂ (· - ·) (pay2_apply q r 2) (pay3_apply k 2 j)

/-- The named width constant denotes the rational 2/11 at the extended reals, by the certificate's table. -/
theorem c_2_11 : Named.named (F := Ideal) Cert.KernelIdeal.κ "c_2_11" (φ := .f32) 0x3E3A2E8C#32 = ((2 / 11 : ℝ) : EReal) :=
  IdealRules.named_const.ideal_named_scalar _ _ _ _ rfl

/-- The softened distance between query row r and key row j. -/
theorem pay7_apply (q : Vec Ideal S1x1x128x3 .f32) (k : Vec Ideal S1x1x1024x3 .f32) (r : Fin 128) (j : Fin 1024) :
    k0_pay7 (F := Ideal) q k (ix2 r j)
      = Cert.DescSpec.dist (q (ix4 0 0 r 0) - k (ix4 0 0 j 0)) (q (ix4 0 0 r 1) - k (ix4 0 0 j 1))
          (q (ix4 0 0 r 2) - k (ix4 0 0 j 2)) := by
  have e : k0_pay7 (F := Ideal) q k (ix2 r j)
      = Cert.DescSpec.dist (k0_pay4 (F := Ideal) q k (ix2 r j)) (k0_pay5 (F := Ideal) q k (ix2 r j))
          (k0_pay6 (F := Ideal) q k (ix2 r j)) := rfl
  rw [e, pay4_apply, pay5_apply, pay6_apply]

/-- The cosine ramp of the distance at (r, j): one half of the cosine of π times the distance past one half over the
    ramp's width, plus one half. -/
theorem pay8_apply (q : Vec Ideal S1x1x128x3 .f32) (k : Vec Ideal S1x1x1024x3 .f32) (r : Fin 128) (j : Fin 1024) :
    k0_pay8 (F := Ideal) q k (ix2 r j)
      = Cert.DescSpec.half * Ideal.cos (Cert.DescSpec.piWord
            * ((k0_pay7 (F := Ideal) q k (ix2 r j) - Cert.DescSpec.half) * ((2 / 11 : ℝ) : EReal)))
          + Cert.DescSpec.half := by
  have e : k0_pay8 (F := Ideal) q k (ix2 r j)
      = Cert.DescSpec.half * Ideal.cos (Cert.DescSpec.piWord
            * ((k0_pay7 (F := Ideal) q k (ix2 r j) - Cert.DescSpec.half)
                * Named.named (F := Ideal) Cert.KernelIdeal.κ "c_2_11" (φ := .f32) 0x3E3A2E8C#32))
          + Cert.DescSpec.half := rfl
  rw [e, c_2_11]

/-- The inner test at (r, j): is the distance below one half? -/
theorem pay9_apply (q : Vec Ideal S1x1x128x3 .f32) (k : Vec Ideal S1x1x1024x3 .f32) (r : Fin 128) (j : Fin 1024) :
    k0_pay9 (F := Ideal) q k (ix2 r j)
      = Ideal.cmp .olt (k0_pay7 (F := Ideal) q k (ix2 r j)) Cert.DescSpec.half := rfl

/-- A lane sum read at row r: the sum over the 1024 lanes of the row's entries. -/
theorem laneSum_apply (v : FVec Ideal S128x1024 .f32) (hφ : FKind.Formats .f32)
    (hacc : (0x00000000#32 : BitVec 32) = FKind.add.neutral .f32 hφ) (r : Fin 128) :
    multiReduction .add [1] S128 v 0x00000000#32 reduces_S128x1024_S128 hφ hacc (ix1 r) = ∑ j : Fin 1024, v (ix2 r j) := by
  refine (Ideal.multiReduction_add_single v 0x00000000#32 reduces_S128x1024_S128 hφ hacc (ix1 r)).trans ?_
  refine Finset.sum_congr rfl fun j _ => congrArg v ?_
  funext a
  match a with
  | ⟨0, _⟩ => exact Fin.ext rfl
  | ⟨1, _⟩ => exact Fin.ext rfl

/-- A vector of 128 entries viewed as one column reads, at (r, 0), entry r. -/
theorem col_apply {α : Type} (x : S128.Idx → α) (r : Fin 128) (u : Fin 1) :
    shapeCast S128x1 x shapeCasts_S128_S128x1 (ix2 r u) = x (ix1 r) :=
  shapeCast_apply x shapeCasts_S128_S128x1 (ix2 r u) (ix1 r) (by
    have hu : u.val = 0 := by omega
    rw [Shape.rowMajor_val_one, Shape.rowMajor_val_two]
    show r.val = r.val * 1 + u.val
    omega)

/-- One of three planes, by channel. -/
def chan {α : Type} (x0 x1 x2 : α) (ch : Fin 3) : α :=
  match ch with
  | ⟨0, _⟩ => x0
  | ⟨1, _⟩ => x1
  | ⟨2, _⟩ => x2

/-- Three columns set side by side read, at (r, ch), column ch at row r. -/
theorem cols3_apply {α : Type} (x0 x1 x2 : S128x1.Idx → α)
    (h : Shape.Concatenates [S128x1, S128x1, S128x1] S128x3 1) (r : Fin 128) (ch : Fin 3) :
    concatenate S128x3 1 [⟨S128x1, x0⟩, ⟨S128x1, x1⟩, ⟨S128x1, x2⟩] h (ix2 r ch) = chan x0 x1 x2 ch (ix2 r (0 : Fin 1)) := by
  have hi : ∀ (c : Fin 3) (b : Fin S128x1.rank), b.cast (rfl : S128x1.rank = S128x3.rank) ≠ (1 : Fin S128x3.rank) →
      ((ix2 r (0 : Fin 1) : S128x1.Idx) b).val = ((ix2 r c : S128x3.Idx) (b.cast rfl)).val := fun c b hb => by
    match b with
    | ⟨0, _⟩ => rfl
    | ⟨1, _⟩ => exact absurd rfl hb
  match ch with
  | ⟨0, _⟩ =>
    exact concatenate_apply_piece (1 : Fin S128x3.rank) [⟨S128x1, x0⟩, ⟨S128x1, x1⟩, ⟨S128x1, x2⟩] h (ix2 r (0 : Fin 3)) 0
      (show 0 < 3 by omega) S128x1 x0 rfl rfl 0 rfl
      (ix2 r (0 : Fin 1)) (hi 0) rfl
  | ⟨1, _⟩ =>
    exact concatenate_apply_piece (1 : Fin S128x3.rank) [⟨S128x1, x0⟩, ⟨S128x1, x1⟩, ⟨S128x1, x2⟩] h (ix2 r (1 : Fin 3)) 1
      (show 1 < 3 by omega) S128x1 x1 rfl rfl 1 rfl
      (ix2 r (0 : Fin 1)) (hi 1) rfl
  | ⟨2, _⟩ =>
    exact concatenate_apply_piece (1 : Fin S128x3.rank) [⟨S128x1, x0⟩, ⟨S128x1, x1⟩, ⟨S128x1, x2⟩] h (ix2 r (2 : Fin 3)) 2
      (show 2 < 3 by omega) S128x1 x2 rfl rfl 2 rfl
      (ix2 r (0 : Fin 1)) (hi 2) rfl

/-- What is stored, over any six planes: at (row r, channel ch), the sum over the lanes of the switched weight — the
    unit where the inner test holds, else the ramp where the distance is below the outer radius, else zero — times
    channel ch's difference plane. -/
theorem pay1_apply (v9 v15 v22 v27 v38 : FVec Ideal S128x1024 .f32) (v40 : IVec S128x1024 1) (c13 : Ideal .f32)
    (r : Fin 128) (ch : Fin 3) :
    k0_pay1 (F := Ideal) v9 v15 v22 v27 v38 v40 c13 (ix4 0 0 r ch)
      = ∑ j : Fin 1024,
          Scalar.select (v40 (ix2 r j)) c13
              (Scalar.select (Ideal.cmp .olt (v27 (ix2 r j)) (Ideal.ofBits .f32 0x40C00000#32)) (v38 (ix2 r j))
                (Ideal.ofBits .f32 0x00000000#32))
            * chan v9 v15 v22 ch (ix2 r j) := by
  unfold k0_pay1
  refine (shapeCast_apply _ shapeCasts_S128x3_S1x1x128x3 (ix4 0 0 r ch) (ix2 r ch) (by
    rw [Shape.rowMajor_val_two, Shape.rowMajor_val_four]
    show r.val * 3 + ch.val = ((0 * 1 + 0) * 128 + r.val) * 3 + ch.val
    omega)).trans ?_
  refine (cols3_apply _ _ _ concatenates_S128x1_S128x1_S128x1_S128x3_d1 r ch).trans ?_
  match ch with
  | ⟨0, _⟩ => exact (col_apply _ r 0).trans (laneSum_apply _ _ _ r)
  | ⟨1, _⟩ => exact (col_apply _ r 0).trans (laneSum_apply _ _ _ r)
  | ⟨2, _⟩ => exact (col_apply _ r 0).trans (laneSum_apply _ _ _ r)

/-- Channel ch's difference plane at (r, j): query row r less key row j, in channel ch. -/
theorem diff_apply (q : Vec Ideal S1x1x128x3 .f32) (k : Vec Ideal S1x1x1024x3 .f32) (r : Fin 128) (j : Fin 1024) (ch : Fin 3) :
    chan (k0_pay4 (F := Ideal) q k) (k0_pay5 (F := Ideal) q k) (k0_pay6 (F := Ideal) q k) ch (ix2 r j)
      = q (ix4 0 0 r ch) - k (ix4 0 0 j ch) :=
  match ch with
  | ⟨0, _⟩ => pay4_apply q k r j
  | ⟨1, _⟩ => pay5_apply q k r j
  | ⟨2, _⟩ => pay6_apply q k r j

/-- The switched weight at (r, j) is the specification's weight of the distance. -/
theorem weight_apply (q : Vec Ideal S1x1x128x3 .f32) (k : Vec Ideal S1x1x1024x3 .f32) (r : Fin 128) (j : Fin 1024) :
    Scalar.select (k0_pay9 (F := Ideal) q k (ix2 r j)) (Scalar.ofBits (F := Ideal) .f32 0x3F800000#32)
        (Scalar.select (Ideal.cmp .olt (k0_pay7 (F := Ideal) q k (ix2 r j)) (Ideal.ofBits .f32 0x40C00000#32))
          (k0_pay8 (F := Ideal) q k (ix2 r j)) (Ideal.ofBits .f32 0x00000000#32))
      = Cert.DescSpec.weight (Cert.DescSpec.dist (q (ix4 0 0 r 0) - k (ix4 0 0 j 0)) (q (ix4 0 0 r 1) - k (ix4 0 0 j 1))
          (q (ix4 0 0 r 2) - k (ix4 0 0 j 2))) := by
  rw [pay9_apply, pay8_apply, pay7_apply]
  rfl

/-- The stored tile at (row r, channel ch), at the extended reals. -/
theorem stored_apply (q : Vec Ideal S1x1x128x3 .f32) (k : Vec Ideal S1x1x1024x3 .f32) (r : Fin 128) (ch : Fin 3) :
    stored (F := Ideal) q k (ix4 0 0 r ch)
      = ∑ j : Fin 1024,
          Cert.DescSpec.weight (Cert.DescSpec.dist (q (ix4 0 0 r 0) - k (ix4 0 0 j 0)) (q (ix4 0 0 r 1) - k (ix4 0 0 j 1))
              (q (ix4 0 0 r 2) - k (ix4 0 0 j 2)))
            * (q (ix4 0 0 r ch) - k (ix4 0 0 j ch)) := by
  unfold stored
  refine (pay1_apply _ _ _ _ _ _ _ r ch).trans ?_
  refine Finset.sum_congr rfl fun j _ => ?_
  exact congrArg₂ (· * ·) (weight_apply q k r j) (diff_apply q k r j ch)

end Cert.KernelIdeal.Desc

end
-- ==== Proof.IdealValue.lean ====
/-
  From the tiles to the array: after all 128 points the output array is the descriptor of the coordinate array.

  A point of the grid is a triple (b, f, i): batch, frame, query tile. Its query block is rows 128·i … 128·i + 127 of
  slice (b, f) of the coordinate array, its key block all 1024 rows of that slice, and its output block the same rows
  of slice (b, f) of the output array as the query block. Entry (r, ch) of what the point writes back is the sum over the
  key rows j of weight(dist) · difference, the differences being those of query row r and key row j: read in the array,
  that is the descriptor's own sum at (b, f, 128·i + r, ch). The output blocks of the 4 · 4 · 8 points tile the array,
  atom n of slice (b, f) lying in the block of (b, f, n / 128), so after the last point every entry is the descriptor's.
-/
import proofs.«140011_j7275674599831_1_alg».proof.Proof.IdealPayload

set_option maxRecDepth 16384

noncomputable section

namespace Cert.KernelIdeal.Desc

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (m : (ℓ : Loc nD τ sig) → Buf (Elt Ideal) ℓ)

/-- The three index maps at a point, decided over the 128 points: the query and output tiles sit at block (b, f, i, 0),
    the key set at block (b, f, 0, 0), with b, f below 4 and i below 8. -/
theorem block_of_point : ∀ t : Fin cfg0.N,
    win0_0.index t (0 : Fin 4) = win0_2.index t (0 : Fin 4)
    ∧ win0_0.index t (1 : Fin 4) = win0_2.index t (1 : Fin 4)
    ∧ win0_0.index t (2 : Fin 4) = win0_2.index t (2 : Fin 4)
    ∧ win0_0.index t (3 : Fin 4) = 0
    ∧ win0_1.index t (0 : Fin 4) = win0_2.index t (0 : Fin 4)
    ∧ win0_1.index t (1 : Fin 4) = win0_2.index t (1 : Fin 4)
    ∧ win0_1.index t (2 : Fin 4) = 0
    ∧ win0_1.index t (3 : Fin 4) = 0
    ∧ win0_2.index t (0 : Fin 4) ≤ 3
    ∧ win0_2.index t (1 : Fin 4) ≤ 3
    ∧ win0_2.index t (2 : Fin 4) ≤ 7
    ∧ win0_2.index t (3 : Fin 4) = 0 :=
  (by decide +kernel : ∀ t : Fin grid0.N, _)

/-- Every block (b, f, i) of the output is some point's. -/
theorem point_of_block : ∀ (q0 : Fin 4) (q1 : Fin 4) (q2 : Fin 8), ∃ t : Fin cfg0.N,
    win0_2.index t (0 : Fin 4) = q0.val ∧ win0_2.index t (1 : Fin 4) = q1.val ∧ win0_2.index t (2 : Fin 4) = q2.val :=
  (by decide +kernel : ∀ (q0 : Fin 4) (q1 : Fin 4) (q2 : Fin 8), ∃ t : Fin grid0.N,
    win0_2.index t (0 : Fin 4) = q0.val ∧ win0_2.index t (1 : Fin 4) = q1.val ∧ win0_2.index t (2 : Fin 4) = q2.val)

/-- One entry of a stored tile is one entry of the descriptor: if row r of the query block is atom n of slice (b, f) of
    the array a, and the key block is all the atoms of that slice, then the sum over the key rows stored at (r, ch) is the
    descriptor's sum over the atoms at (b, f, n, ch), term by term. -/
theorem stored_of_tiles (a : S4x4x1024x3.Idx → EReal) (q : Vec Ideal S1x1x128x3 .f32) (k : Vec Ideal S1x1x1024x3 .f32)
    (b f : Fin 4) (n : Fin 1024) (r : Fin 128) (ch : Fin 3)
    (hq : ∀ ch' : Fin 3, q (ix4 0 0 r ch') = a (ix4 b f n ch'))
    (hk : ∀ (j : Fin 1024) (ch' : Fin 3), k (ix4 0 0 j ch') = a (ix4 b f j ch')) :
    stored (F := Ideal) q k (ix4 0 0 r ch) = Cert.DescSpec.desc a (ix4 b f n ch) := by
  rw [stored_apply, Cert.DescSpec.desc_ix4]
  unfold Cert.DescSpec.descAt Cert.DescSpec.term Cert.DescSpec.delta
  refine Finset.sum_congr rfl fun j _ => ?_
  rw [hq 0, hq 1, hq 2, hq ch, hk j 0, hk j 1, hk j 2, hk j ch]

/-- The coordinate array as launched on core c. -/
abbrev coords (c : Dev nD) : S4x4x1024x3.Idx → EReal := m ((c.tc : Thread nD τ).loc main_arg0)

/-- The query block and the key block at a point, at their literal shapes. -/
abbrev queryTile (c : Dev nD) (t : Fin cfg0.N) : Vec Ideal S1x1x128x3 .f32 := tile m c 0 t
abbrev keyTile (c : Dev nD) (t : Fin cfg0.N) : Vec Ideal S1x1x1024x3 .f32 := tile m c 1 t

/-- Row r of the query block at the point of block (b, f, i) is atom 128·i + r of slice (b, f). -/
theorem queryTile_apply (c : Dev nD) (t : Fin cfg0.N) (b f : Fin 4) (n : Fin 1024) (r : Fin 128) (ch : Fin 3)
    (hb : b.val = win0_2.index t (0 : Fin 4)) (hf : f.val = win0_2.index t (1 : Fin 4))
    (hn : n.val = win0_2.index t (2 : Fin 4) * 128 + r.val) :
    queryTile m c t (ix4 0 0 r ch) = coords m c (ix4 b f n ch) := by
  obtain ⟨e00, e01, e02, e03, e10, e11, e12, e13, l0, l1, l2, z3⟩ := block_of_point t
  show coords m c (((cfg0.win 0).blk t).view.emb (ix4 (0 : Fin 1) (0 : Fin 1) r ch)) = _
  refine congrArg (coords m c) (funext fun a => Fin.ext ?_)
  match a with
  | ⟨0, _⟩ => show win0_0.index t (0 : Fin 4) * 1 + 1 * 0 = b.val; omega
  | ⟨1, _⟩ => show win0_0.index t (1 : Fin 4) * 1 + 1 * 0 = f.val; omega
  | ⟨2, _⟩ => show win0_0.index t (2 : Fin 4) * 128 + 1 * r.val = n.val; omega
  | ⟨3, _⟩ => show win0_0.index t (3 : Fin 4) * 3 + 1 * ch.val = ch.val; omega

/-- Row j of the key block at the point of block (b, f, i) is atom j of slice (b, f). -/
theorem keyTile_apply (c : Dev nD) (t : Fin cfg0.N) (b f : Fin 4) (j : Fin 1024) (ch : Fin 3)
    (hb : b.val = win0_2.index t (0 : Fin 4)) (hf : f.val = win0_2.index t (1 : Fin 4)) :
    keyTile m c t (ix4 0 0 j ch) = coords m c (ix4 b f j ch) := by
  obtain ⟨e00, e01, e02, e03, e10, e11, e12, e13, l0, l1, l2, z3⟩ := block_of_point t
  show coords m c (((cfg0.win 1).blk t).view.emb (ix4 (0 : Fin 1) (0 : Fin 1) j ch)) = _
  refine congrArg (coords m c) (funext fun a => Fin.ext ?_)
  match a with
  | ⟨0, _⟩ => show win0_1.index t (0 : Fin 4) * 1 + 1 * 0 = b.val; omega
  | ⟨1, _⟩ => show win0_1.index t (1 : Fin 4) * 1 + 1 * 0 = f.val; omega
  | ⟨2, _⟩ => show win0_1.index t (2 : Fin 4) * 1024 + 1 * j.val = j.val; omega
  | ⟨3, _⟩ => show win0_1.index t (3 : Fin 4) * 3 + 1 * ch.val = ch.val; omega

/-- What a point writes back is its block of the descriptor of the coordinate array. -/
theorem tile_written (c : Dev nD) (t : Fin cfg0.N) :
    (dats (F := Ideal) m 0 c).flushed 2 t
      = ((cfg0.win 2).blk t).view.read (Elt Ideal) (Cert.DescSpec.desc (coords m c)) := by
  show (cfg0.win 2).cut (grid0.coords t) ((dats (F := Ideal) m 0 c).after 2 t) = _
  rw [after_out]
  obtain ⟨e00, e01, e02, e03, e10, e11, e12, e13, l0, l1, l2, z3⟩ := block_of_point t
  funext y
  have y0 : (y 0).val < 1 := (y 0).isLt
  have y1 : (y 1).val < 1 := (y 1).isLt
  have y2 : (y 2).val < 128 := (y 2).isLt
  have y3 : (y 3).val < 3 := (y 3).isLt
  show stored (F := Ideal) (queryTile m c t) (keyTile m c t) ((cfg0.win 2).xinj (grid0.coords t) y)
      = Cert.DescSpec.desc (coords m c) (((cfg0.win 2).blk t).view.emb y)
  have hx : (cfg0.win 2).xinj (grid0.coords t) y
      = (ix4 (0 : Fin 1) (0 : Fin 1) (⟨(y 2).val, y2⟩ : Fin 128) (⟨(y 3).val, y3⟩ : Fin 3) : S1x1x128x3.Idx) := by
    funext a; apply Fin.ext
    match a with
    | ⟨0, _⟩ => show (y 0).val = 0; omega
    | ⟨1, _⟩ => show (y 1).val = 0; omega
    | ⟨2, _⟩ => rfl
    | ⟨3, _⟩ => rfl
  have hp : ((cfg0.win 2).blk t).view.emb y
      = (ix4 (⟨win0_2.index t (0 : Fin 4), by omega⟩ : Fin 4) (⟨win0_2.index t (1 : Fin 4), by omega⟩ : Fin 4)
          (⟨win0_2.index t (2 : Fin 4) * 128 + (y 2).val, by omega⟩ : Fin 1024) (⟨(y 3).val, y3⟩ : Fin 3) : S4x4x1024x3.Idx) := by
    funext a; apply Fin.ext
    match a with
    | ⟨0, _⟩ => show win0_2.index t (0 : Fin 4) * 1 + 1 * (y 0).val = win0_2.index t (0 : Fin 4); omega
    | ⟨1, _⟩ => show win0_2.index t (1 : Fin 4) * 1 + 1 * (y 1).val = win0_2.index t (1 : Fin 4); omega
    | ⟨2, _⟩ => show win0_2.index t (2 : Fin 4) * 128 + 1 * (y 2).val = win0_2.index t (2 : Fin 4) * 128 + (y 2).val; omega
    | ⟨3, _⟩ => show win0_2.index t (3 : Fin 4) * 3 + 1 * (y 3).val = (y 3).val; omega
  refine (congrArg (stored (F := Ideal) (queryTile m c t) (keyTile m c t)) hx).trans ?_
  refine Eq.trans ?_ (congrArg (Cert.DescSpec.desc (coords m c)) hp).symm
  exact stored_of_tiles (coords m c) (queryTile m c t) (keyTile m c t) _ _ _ _ _
    (fun ch' => queryTile_apply m c t _ _ _ _ ch' rfl rfl rfl)
    (fun j ch' => keyTile_apply m c t _ _ j ch' rfl rfl)

/-- An index of the output array is in a point's block iff each coordinate is in the block's range on its axis. -/
theorem mem_out_tile (t : Fin cfg0.N) (p : S4x4x1024x3.Idx) :
    p ∈ ((cfg0.win 2).blk t).view.set
      ↔ ∀ a : Fin 4, win0_2.index t a * S1x1x128x3.size a ≤ (p a).val
          ∧ (p a).val < win0_2.index t a * S1x1x128x3.size a + S1x1x128x3.size a := by
  show p ∈ ((View.whole main_v0).slice (win0_2.rect t)).set ↔ _
  rw [View.set_slice_whole, Rect.mem_set_unit]
  exact Iff.rfl

/-- The output tiles cover the array: atom n of slice (b, f) lies in the tile of block (b, f, n / 128). -/
theorem tiles_cover (p : S4x4x1024x3.Idx) :
    ∃ t : Fin cfg0.N, (cfg0.win 2).flush t = true ∧ p ∈ ((cfg0.win 2).blk t).view.set := by
  have p0 : (p 0).val < 4 := (p 0).isLt
  have p1 : (p 1).val < 4 := (p 1).isLt
  have p2 : (p 2).val < 1024 := (p 2).isLt
  have p3 : (p 3).val < 3 := (p 3).isLt
  obtain ⟨t, h0, h1, h2⟩ := point_of_block ⟨(p 0).val, p0⟩ ⟨(p 1).val, p1⟩ ⟨(p 2).val / 128, by omega⟩
  have h0' : win0_2.index t (0 : Fin 4) = (p 0).val := h0
  have h1' : win0_2.index t (1 : Fin 4) = (p 1).val := h1
  have h2' : win0_2.index t (2 : Fin 4) = (p 2).val / 128 := h2
  obtain ⟨e00, e01, e02, e03, e10, e11, e12, e13, l0, l1, l2, z3⟩ := block_of_point t
  refine ⟨t, flush0_2 t, ?_⟩
  rw [mem_out_tile]
  intro a
  match a with
  | ⟨0, _⟩ => show win0_2.index t (0 : Fin 4) * 1 ≤ (p 0).val ∧ (p 0).val < win0_2.index t (0 : Fin 4) * 1 + 1; omega
  | ⟨1, _⟩ => show win0_2.index t (1 : Fin 4) * 1 ≤ (p 1).val ∧ (p 1).val < win0_2.index t (1 : Fin 4) * 1 + 1; omega
  | ⟨2, _⟩ => show win0_2.index t (2 : Fin 4) * 128 ≤ (p 2).val ∧ (p 2).val < win0_2.index t (2 : Fin 4) * 128 + 128; omega
  | ⟨3, _⟩ => show win0_2.index t (3 : Fin 4) * 3 ≤ (p 3).val ∧ (p 3).val < win0_2.index t (3 : Fin 4) * 3 + 3; omega

/-- The output array after the last write-back is the descriptor of the coordinate array as launched. -/
theorem final_out (c : Dev nD) :
    ((dats (F := Ideal) m 0 c).arrAt 2 cfg0.N : S4x4x1024x3.Idx → EReal)
      = Cert.DescSpec.desc (m ((c.tc : Thread nD τ).loc main_arg0)) := by
  exact (dats (F := Ideal) m 0 c).arrAt_eq_of_cover 2 (Cert.DescSpec.desc (coords m c))
    (fun t _ => tile_written m c t) tiles_cover

end Cert.KernelIdeal.Desc

end
-- ==== Proof.RefValue.lean ====
/-
  The reference's result is the same function of the coordinate array: the reshape of the descriptor.

  The reference forms all pairwise differences as a rank-5 array (batch, frame, atom i, atom j, channel), squares
  them, sums the three channels, adds the softening term, takes the root, applies the switching function, multiplies
  the weight back onto the differences and sums over atom j. Read at one index each of these steps is the
  corresponding scalar expression of the descriptor; the two sums start from the zero word, which is the real zero,
  and the division by the word of 11/2 is the multiplication by 2/11.
-/
import proofs.«140011_j7275674599831_1_alg».proof.Proof.Gen.ReferenceIdeal.Run
import proofs.«140011_j7275674599831_1_alg».proof.Proof.Gen.ReferenceIdeal.Read
import proofs.«140011_j7275674599831_1_alg».proof.Proof.Spec
import Idealize.ShloMosaic.Lib.Pipeline.Value
import Idealize.ShloMosaic.Lib.ValueLayout

set_option maxRecDepth 16384

noncomputable section

namespace Cert.ReferenceIdeal.DescRef

open Idealize.ShloMosaic Idealize.ShloMosaic.TcCoe Idealize.ShloMosaic.ValueIdx Idealize.SL.Sem
open Cert.ReferenceIdeal
open scoped BigOperators

open Cert.ReferenceIdeal.Read Cert.DescSpec

/-- The coordinate array as the reference's stages take it. -/
abbrev Arr : Type := (⟨S4x4x1024x3, .f32⟩ : BufTy).Contents (Elt Ideal)

/-- The word 0x40B00000 (sign 0, exponent 129, fraction 3/8) is the real 11/2. -/
theorem width_word : Ideal.ofBits .f32 0x40B00000#32 = ((11 / 2 : ℝ) : EReal) := by
  simp [Ideal.ofBits, Ideal.ieee, -EReal.coe_mul]; norm_num

/-! ## The composed index maps, on coordinates -/

/-- The outer sum's k-th operand index: atom k goes into the fourth axis. -/
theorem idx_outer (b f : Fin 4) (i k : Fin 1024) (c : Fin 3) :
    idx_main_v32 (ix4 b f i c) k = ix5 b f i k c := by
  funext a; match a with | ⟨0, _⟩ => rfl | ⟨1, _⟩ => rfl | ⟨2, _⟩ => rfl | ⟨3, _⟩ => rfl | ⟨4, _⟩ => rfl

/-- The channel sum's k-th operand index: channel k goes into the last axis. -/
theorem idx_inner (b f : Fin 4) (i j : Fin 1024) (k : Fin 3) :
    idx_main_v6 (ix4 b f i j) k = ix5 b f i j k := by
  funext a; match a with | ⟨0, _⟩ => rfl | ⟨1, _⟩ => rfl | ⟨2, _⟩ => rfl | ⟨3, _⟩ => rfl | ⟨4, _⟩ => rfl

/-- The weight array, broadcast over the channel, is read at the pair (i, j). -/
theorem idx_weight (b f : Fin 4) (i j : Fin 1024) (c : Fin 3) :
    idx_main_v29 (idx_main_v30 (ix5 b f i j c)) = ix4 b f i j := by
  funext a; match a with | ⟨0, _⟩ => rfl | ⟨1, _⟩ => rfl | ⟨2, _⟩ => rfl | ⟨3, _⟩ => rfl

/-- The first broadcast of the coordinates forgets atom j … -/
theorem idx_left (b f : Fin 4) (i j : Fin 1024) (c : Fin 3) :
    idx_main_v0 (idx_main_v2 (ix5 b f i j c)) = ix4 b f i c := by
  funext a; match a with | ⟨0, _⟩ => rfl | ⟨1, _⟩ => rfl | ⟨2, _⟩ => rfl | ⟨3, _⟩ => rfl

/-- … and the second forgets atom i. -/
theorem idx_right (b f : Fin 4) (i j : Fin 1024) (c : Fin 3) :
    idx_main_v1 (idx_main_v3 (ix5 b f i j c)) = ix4 b f j c := by
  funext a; match a with | ⟨0, _⟩ => rfl | ⟨1, _⟩ => rfl | ⟨2, _⟩ => rfl | ⟨3, _⟩ => rfl

/-! ## The stages at an index -/

/-- The pairwise difference array at (b, f, i, j, c) is the difference of atoms i and j in channel c. -/
theorem diff_at (a : Arr) (b f : Fin 4) (i j : Fin 1024) (c : Fin 3) :
    val_main_v4 (F := Ideal) a (ix5 b f i j c) = delta a b f i j c := by
  rw [val_main_v4_apply, val_main_v2_apply, val_main_v0_apply, val_main_v3_apply, val_main_v1_apply,
    idx_left, idx_right]
  rfl

/-- The distance array at (b, f, i, j): the zero word plus the three squares is the squares added left to right. -/
theorem dist_at (a : Arr) (b f : Fin 4) (i j : Fin 1024) :
    val_main_v9 (F := Ideal) a (ix4 b f i j)
      = Cert.DescSpec.dist (delta a b f i j 0) (delta a b f i j 1) (delta a b f i j 2) := by
  rw [val_main_v9_apply, val_main_v8_apply, val_main_v6_apply, val_main_v7_apply, val_main_cst_apply,
    val_main_cst_0_apply, Fin.sum_univ_three]
  simp only [val_main_v5_apply, idx_inner, diff_at, Ideal.hostUnary_sqrt_def, Ideal.addf_def, Ideal.mulf_def,
    Ideal.ofBits_def, Ideal.ofBits_zero_f32, zero_add]
  unfold Cert.DescSpec.dist
  rw [add_assoc (delta a b f i j 0 * delta a b f i j 0)]

/-- The switching weight at (b, f, i, j) is the specification's weight of the distance. -/
theorem weight_at (a : Arr) (b f : Fin 4) (i j : Fin 1024) :
    val_main_v28 (F := Ideal) a (ix4 b f i j)
      = weight (Cert.DescSpec.dist (delta a b f i j 0) (delta a b f i j 1) (delta a b f i j 2)) := by
  rw [val_main_v28_apply, val_main_v27_apply, val_main_v22_apply, val_main_v25_apply, val_main_v20_apply,
    val_main_v18_apply, val_main_v16_apply, val_main_v15_apply, val_main_v13_apply, val_main_v11_apply,
    val_main_v23_apply, val_main_v26_apply, val_main_v21_apply, val_main_v24_apply, val_main_v19_apply,
    val_main_v17_apply, val_main_v14_apply, val_main_v12_apply, val_main_v10_apply,
    val_main_cst_7_apply, val_main_cst_9_apply, val_main_cst_6_apply, val_main_cst_8_apply, val_main_cst_5_apply,
    val_main_cst_4_apply, val_main_cst_3_apply, val_main_cst_2_apply, val_main_cst_1_apply, dist_at]
  simp only [Ideal.hostUnary_cos_def, Ideal.hostDivf_def, Ideal.addf_def, Ideal.mulf_def, Ideal.subf_def,
    Ideal.ofBits_def, Ideal.cmpf_def, width_word, div_width]
  rfl

/-- One term of the outer sum. -/
theorem term_at (a : Arr) (b f : Fin 4) (i j : Fin 1024) (c : Fin 3) :
    val_main_v31 (F := Ideal) a (ix5 b f i j c) = term a b f i j c := by
  rw [val_main_v31_apply, val_main_v30_apply, val_main_v29_apply, idx_weight, weight_at, diff_at]
  rfl

/-- The reference's rank-4 result is the descriptor. -/
theorem desc_at (a : Arr) : val_main_v32 (F := Ideal) a = desc a := by
  funext p
  obtain ⟨b, f, i, c, rfl⟩ : ∃ (b f : Fin 4) (i : Fin 1024) (c : Fin 3), p = ix4 b f i c :=
    ⟨p 0, p 1, p 2, p 3, eq_ix4 p⟩
  rw [desc_ix4, val_main_v32_apply, val_main_cst_10_apply]
  simp only [idx_outer, term_at, Ideal.ofBits_def, Ideal.ofBits_zero_f32, zero_add]
  rfl

/-- The reference run's result term, at the extended reals, is the row-major reshape of the descriptor of the coordinate
    array as launched. -/
theorem ref_result (m : (ℓ : Loc nD τ sig) → Buf (Elt Ideal) ℓ) (c : Dev nD) :
    Cert.ReferenceIdeal.Value.res_out0 (F := Ideal) m c
      = shapeCast S4x4x3072 (Cert.DescSpec.desc (m ((c.tc : Thread nD τ).loc main_arg0))) Cert.ReferenceIdeal.Gen.shapeCasts_S4x4x1024x3_S4x4x3072 := by
  show Cert.ReferenceIdeal.Value.res_main_v33 m c = _
  rw [val_main_v33_eq]
  unfold val_main_v33
  rw [desc_at]

end Cert.ReferenceIdeal.DescRef

end
-- ==== Proof.lean ====
/-
  The pairwise descriptor: a tiled kernel against the whole-array formula.

  For every batch b, frame f, atom i and channel c the result is the sum over all 1024 atoms j of the switching weight
  of the distance between atoms i and j times their coordinate difference in channel c (Proof/Spec.lean states it as one
  function `desc` of the coordinate array). The kernel computes it tile by tile: a grid point (b, f, i) holds 128 query
  rows and all 1024 key rows of slice (b, f), both read from the one coordinate array, forms the three [128, 1024]
  difference planes, the distance plane, the weight plane, and sums each weighted difference plane along its rows; the
  128 output tiles per slice tile the result array, which a final row-major reshape flattens. The reference forms the
  whole [4, 4, 1024, 1024, 3] difference array at once and sums over j, then applies the same reshape.

  Over the extended reals the two agree entry by entry with nothing assumed of the inputs: both add the same three
  squares (addition there is associative and the reference's sum starts from zero), take the same root and cosine, compare
  with the same words, and where the kernel multiplies the distance past the inner radius by the constant named 2/11 the
  reference divides by 11/2, which on every extended real is the same product.

  Each program runs to the end with its arguments untouched. For the kernel that is the pipeline rule with the two
  input windows each holding half of the coordinate array's share: the body at a point only reads its two input buffers
  and overwrites its output buffer whole (Proof/IdealBody.lean, Proof/BitsBody.lean), and the launch threads the region
  and the reshape after it (Proof/IdealLaunch.lean, Proof/BitsLaunch.lean). For the reference it is its run read back.
  The one rewrite of the idealization, the constant 0x3E3A2E8C read as 2/11, is its rule's own statement.
-/
import proofs.«140011_j7275674599831_1_alg».proof.Defs
import proofs.«140011_j7275674599831_1_alg».proof.Proof.Gen.Kernel
import proofs.«140011_j7275674599831_1_alg».proof.Proof.Gen.KernelIdeal
import proofs.«140011_j7275674599831_1_alg».proof.Proof.Gen.ReferenceIdeal
import proofs.«140011_j7275674599831_1_alg».proof.Proof.Gen.Pre_finite_inputs
import proofs.«140011_j7275674599831_1_alg».proof.Proof.Gen.ReferenceIdeal.Run
import proofs.«140011_j7275674599831_1_alg».proof.Proof.BitsBody
import proofs.«140011_j7275674599831_1_alg».proof.Proof.BitsLaunch
import proofs.«140011_j7275674599831_1_alg».proof.Proof.IdealBody
import proofs.«140011_j7275674599831_1_alg».proof.Proof.IdealLaunch
import proofs.«140011_j7275674599831_1_alg».proof.Proof.IdealValue
import proofs.«140011_j7275674599831_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: the launch over the body obligation, the result
    buffer's contents dropped. -/
theorem frame_kernel : Cert.frame_Kernel := fun m ρ _ =>
  (θ_run Cert.Kernel.defs _ _).mono (fun _ h c => (h c).2)
    (Cert.Kernel.Desc.run_of_body (F := Bits) m ρ (Cert.Kernel.Desc.body_obligation m))

/-- The idealized kernel likewise. -/
theorem frame_kernelIdeal : Cert.frame_KernelIdeal := fun m ρ _ =>
  (θ_run Cert.KernelIdeal.defs _ _).mono (fun _ h c => (h c).2)
    (Cert.KernelIdeal.Desc.run_of_body (F := Ideal) m ρ (Cert.KernelIdeal.Desc.body_obligation m))

/-- The reference is host operations only: its run read back, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization's one rewrite: the kernel's reciprocal of the shell's width, the word 0x3E3A2E8C, denotes 2/11. -/
theorem preserves : Cert.preserves_Kernel_KernelIdeal :=
  IdealRules.named_const.statement Cert.KernelIdeal.κ "c_2_11" .f32 0x3E3A2E8C#32 ((2 / 11 : ℝ) : EReal) rfl

/-- Both idealized programs end with the reshape of the descriptor of the coordinate array in their result buffers. -/
theorem algebraic : Cert.algebraic_KernelIdeal_ReferenceIdeal := by
  intro m ρ m' ρ' _ hagree
  refine ⟨fun c => shapeCast Cert.KernelIdeal.S4x4x3072
      (Cert.DescSpec.desc (m ((c.tc : Thread Cert.KernelIdeal.nD Cert.KernelIdeal.τ).loc Cert.KernelIdeal.main_arg0)))
      Cert.KernelIdeal.Gen.shapeCasts_S4x4x1024x3_S4x4x3072, ?_, ?_⟩
  · refine (θ_run Cert.KernelIdeal.defs _ _).mono (fun _ h c => ⟨(h c).1.trans ?_, (h c).2⟩)
      (Cert.KernelIdeal.Desc.run_of_body (F := Ideal) m ρ (Cert.KernelIdeal.Desc.body_obligation m))
    exact congrArg (fun X : Cert.KernelIdeal.S4x4x1024x3.Idx → EReal =>
      shapeCast Cert.KernelIdeal.S4x4x3072 X Cert.KernelIdeal.Gen.shapeCasts_S4x4x1024x3_S4x4x3072)
      (Cert.KernelIdeal.Desc.final_out m c)
  · refine (θ_run Cert.ReferenceIdeal.defs _ _).mono (fun _ h c => ⟨(h c).1.trans ?_, (h c).2⟩)
      (Cert.ReferenceIdeal.Value.run (F := Ideal) m' ρ')
    refine (Cert.ReferenceIdeal.DescRef.ref_result m' c).trans ?_
    rw [(hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
